-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x2048x2048 : Shape := ⟨4, ![16, 1, 2048, 2048]⟩
abbrev S16x5000x2 : Shape := ⟨3, ![16, 5000, 2]⟩
abbrev S16x5000 : Shape := ⟨2, ![16, 5000]⟩
abbrev S_ : Shape := ⟨0, ![]⟩

class Facts : Prop where
  bcast_S_S16x1x2048x2048 : S_.BroadcastsInDim S16x1x2048x2048 (![] : Fin 0 → Fin S16x1x2048x2048.rank)
  reducesTo_S16x1x2048x2048_S_d0_1_2_3 : S16x1x2048x2048.ReducesTo [0, 1, 2, 3] S_
  h_S_ : 0 < S_.numel
  bcast_S_S16x5000 : S_.BroadcastsInDim S16x5000 (![] : Fin 0 → Fin S16x5000.rank)
  reducesTo_S16x5000_S_d0_1 : S16x5000.ReducesTo [0, 1] S_
  bcast_S_S16x5000x2 : S_.BroadcastsInDim S16x5000x2 (![] : Fin 0 → Fin S16x5000x2.rank)
  reducesTo_S16x5000x2_S_d0_1_2 : S16x5000x2.ReducesTo [0, 1, 2] S_

variable [Facts]

def fn {F : FTy → Type} [FloatOps F] (main_arg0 : FVec F S16x1x2048x2048 .f32) (main_arg1 : IVec S16x5000x2 32) (main_arg2 : FVec F S16x5000 .f32) : IVec S_ 1 :=
  let main_v0 : FVec F S16x1x2048x2048 .f32 := Host.absf main_arg0
  let main_cst : FVec F S_ .f32 := constant S_ .f32 0x7F800000#32
  let main_v1 : FVec F S16x1x2048x2048 .f32 := broadcastInDim S16x1x2048x2048 ![] bcast_S_S16x1x2048x2048 main_cst
  let main_v2 : IVec S16x1x2048x2048 1 := cmpf .olt main_v0 main_v1
  let main_c : IVec S_ 1 := constantI S_ 1 1#1
  let main_v3 : IVec S_ 1 := (fun x v => Host.reduce IntOp.andi x v reducesTo_S16x1x2048x2048_S_d0_1_2_3 h_S_) main_v2 main_c
  let main_v4 : FVec F S16x5000 .f32 := Host.absf main_arg2
  let main_cst_0 : FVec F S_ .f32 := constant S_ .f32 0x7F800000#32
  let main_v5 : FVec F S16x5000 .f32 := broadcastInDim S16x5000 ![] bcast_S_S16x5000 main_cst_0
  let main_v6 : IVec S16x5000 1 := cmpf .olt main_v4 main_v5
  let main_c_1 : IVec S_ 1 := constantI S_ 1 1#1
  let main_v7 : IVec S_ 1 := (fun x v => Host.reduce IntOp.andi x v reducesTo_S16x5000_S_d0_1 h_S_) main_v6 main_c_1
  let main_v8 : IVec S_ 1 := andi main_v3 main_v7
  let main_c_2 : IVec S_ 32 := constantI S_ 32 4294967295#32
  let main_v9 : IVec S16x5000x2 32 := broadcastInDim S16x5000x2 ![] bcast_S_S16x5000x2 main_c_2
  let main_v10 : IVec S16x5000x2 1 := cmpi .sge main_arg1 main_v9
  let main_c_3 : IVec S_ 32 := constantI S_ 32 2048#32
  let main_v11 : IVec S16x5000x2 32 := broadcastInDim S16x5000x2 ![] bcast_S_S16x5000x2 main_c_3
  let main_v12 : IVec S16x5000x2 1 := cmpi .sle main_arg1 main_v11
  let main_v13 : IVec S16x5000x2 1 := andi main_v10 main_v12
  let main_c_4 : IVec S_ 1 := constantI S_ 1 1#1
  let main_v14 : IVec S_ 1 := (fun x v => Host.reduce IntOp.andi x v reducesTo_S16x5000x2_S_d0_1_2 h_S_) main_v13 main_c_4
  let main_v15 : IVec S_ 1 := andi main_v8 main_v14
  main_v15
-- ==== Kernel.lean ====
abbrev S16x1x2048x2048 : Shape := ⟨4, ![16, 1, 2048, 2048]⟩
abbrev S16x5000x2 : Shape := ⟨3, ![16, 5000, 2]⟩
abbrev S16x5000 : Shape := ⟨2, ![16, 5000]⟩
abbrev S3 : Shape := ⟨1, ![3]⟩
abbrev S_ : Shape := ⟨0, ![]⟩
abbrev S3x3 : Shape := ⟨2, ![3, 3]⟩
abbrev S9 : Shape := ⟨1, ![9]⟩
abbrev S16x5000x1 : Shape := ⟨3, ![16, 5000, 1]⟩
abbrev S1x1x9 : Shape := ⟨3, ![1, 1, 9]⟩
abbrev S16x5000x9 : Shape := ⟨3, ![16, 5000, 9]⟩
abbrev S16 : Shape := ⟨1, ![16]⟩
abbrev S16x1x1 : Shape := ⟨3, ![16, 1, 1]⟩
abbrev S16x5000x9x1 : Shape := ⟨4, ![16, 5000, 9, 1]⟩
abbrev S16x5000x9x4 : Shape := ⟨4, ![16, 5000, 9, 4]⟩
abbrev S16x5120 : Shape := ⟨2, ![16, 5120]⟩
abbrev S16x1x5120 : Shape := ⟨3, ![16, 1, 5120]⟩
abbrev S16x128 : Shape := ⟨2, ![16, 128]⟩
abbrev S1x1x5120 : Shape := ⟨3, ![1, 1, 5120]⟩
abbrev S8x128 : Shape := ⟨2, ![8, 128]⟩
abbrev S40x128 : Shape := ⟨2, ![40, 128]⟩
abbrev S5120 : Shape := ⟨1, ![5120]⟩
abbrev S40 : Shape := ⟨1, ![40]⟩
abbrev S1x40 : Shape := ⟨2, ![1, 40]⟩
abbrev S1 : Shape := ⟨1, ![1]⟩
abbrev S1x1 : Shape := ⟨2, ![1, 1]⟩

abbrev nBuf : Space → Nat
  | .hbm => 118
  | .vmem => 9
  | .smem => 0
  | _ => 0

abbrev bufTy : (tb : Table) → Fin (tcTables nBuf tb) → BufTy
  | .hbm, ⟨0, _⟩ => ⟨S16x1x2048x2048, .f32⟩
  | .hbm, ⟨1, _⟩ => ⟨S16x5000x2, .i32⟩
  | .hbm, ⟨2, _⟩ => ⟨S16x5000, .f32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S3x3, .i32⟩
  | .hbm, ⟨8, _⟩ => ⟨S3x3, .i32⟩
  | .hbm, ⟨9, _⟩ => ⟨S9, .i32⟩
  | .hbm, ⟨10, _⟩ => ⟨S9, .i32⟩
  | .hbm, ⟨11, _⟩ => ⟨S16x5000x1, .i32⟩
  | .hbm, ⟨12, _⟩ => ⟨S16x5000, .i32⟩
  | .hbm, ⟨13, _⟩ => ⟨S16x5000x1, .i32⟩
  | .hbm, ⟨14, _⟩ => ⟨S16x5000, .i32⟩
  | .hbm, ⟨15, _⟩ => ⟨S16x5000x1, .i32⟩
  | .hbm, ⟨16, _⟩ => ⟨S1x1x9, .i32⟩
  | .hbm, ⟨17, _⟩ => ⟨S16x5000x9, .i32⟩
  | .hbm, ⟨18, _⟩ => ⟨S16x5000x9, .i32⟩
  | .hbm, ⟨19, _⟩ => ⟨S16x5000x9, .i32⟩
  | .hbm, ⟨20, _⟩ => ⟨S16x5000x1, .i32⟩
  | .hbm, ⟨21, _⟩ => ⟨S1x1x9, .i32⟩
  | .hbm, ⟨22, _⟩ => ⟨S16x5000x9, .i32⟩
  | .hbm, ⟨23, _⟩ => ⟨S16x5000x9, .i32⟩
  | .hbm, ⟨24, _⟩ => ⟨S16x5000x9, .i32⟩
  | .hbm, ⟨25, _⟩ => ⟨S_, .i32⟩
  | .hbm, ⟨26, _⟩ => ⟨S16x5000x9, .i32⟩
  | .hbm, ⟨27, _⟩ => ⟨S16x5000x9, .i1⟩
  | .hbm, ⟨28, _⟩ => ⟨S_, .i32⟩
  | .hbm, ⟨29, _⟩ => ⟨S16x5000x9, .i32⟩
  | .hbm, ⟨30, _⟩ => ⟨S16x5000x9, .i1⟩
  | .hbm, ⟨31, _⟩ => ⟨S16x5000x9, .i1⟩
  | .hbm, ⟨32, _⟩ => ⟨S_, .i32⟩
  | .hbm, ⟨33, _⟩ => ⟨S16x5000x9, .i32⟩
  | .hbm, ⟨34, _⟩ => ⟨S16x5000x9, .i1⟩
  | .hbm, ⟨35, _⟩ => ⟨S16x5000x9, .i1⟩
  | .hbm, ⟨36, _⟩ => ⟨S_, .i32⟩
  | .hbm, ⟨37, _⟩ => ⟨S16x5000x9, .i32⟩
  | .hbm, ⟨38, _⟩ => ⟨S16x5000x9, .i1⟩
  | .hbm, ⟨39, _⟩ => ⟨S16x5000x9, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S16x5000x9, .i32⟩
  | .hbm, ⟨44, _⟩ => ⟨S16x5000x9, .i32⟩
  | .hbm, ⟨45, _⟩ => ⟨S_, .i32⟩
  | .hbm, ⟨46, _⟩ => ⟨S16x5000x9, .i32⟩
  | .hbm, ⟨47, _⟩ => ⟨S16x5000x9, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S16x5000x9, .i32⟩
  | .hbm, ⟨52, _⟩ => ⟨S16x5000x9, .i32⟩
  | .hbm, ⟨53, _⟩ => ⟨S_, .i32⟩
  | .hbm, ⟨54, _⟩ => ⟨S16x5000x9, .i32⟩
  | .hbm, ⟨55, _⟩ => ⟨S16x5000x9, .i32⟩
  | .hbm, ⟨56, _⟩ => ⟨S16, .i32⟩
  | .hbm, ⟨57, _⟩ => ⟨S16x1x1, .i32⟩
  | .hbm, ⟨58, _⟩ => ⟨S_, .i32⟩
  | .hbm, ⟨59, _⟩ => ⟨S16x1x1, .i32⟩
  | .hbm, ⟨60, _⟩ => ⟨S16x1x1, .i1⟩
  | .hbm, ⟨61, _⟩ => ⟨S_, .i32⟩
  | .hbm, ⟨62, _⟩ => ⟨S16x1x1, .i32⟩
  | .hbm, ⟨63, _⟩ => ⟨S16x1x1, .i32⟩
  | .hbm, ⟨64, _⟩ => ⟨S16x1x1, .i32⟩
  | .hbm, ⟨65, _⟩ => ⟨S_, .i32⟩
  | .hbm, ⟨66, _⟩ => ⟨S16x5000x9, .i32⟩
  | .hbm, ⟨67, _⟩ => ⟨S16x5000x9, .i1⟩
  | .hbm, ⟨68, _⟩ => ⟨S_, .i32⟩
  | .hbm, ⟨69, _⟩ => ⟨S16x5000x9, .i32⟩
  | .hbm, ⟨70, _⟩ => ⟨S16x5000x9, .i32⟩
  | .hbm, ⟨71, _⟩ => ⟨S16x5000x9, .i32⟩
  | .hbm, ⟨72, _⟩ => ⟨S_, .i32⟩
  | .hbm, ⟨73, _⟩ => ⟨S16x5000x9, .i32⟩
  | .hbm, ⟨74, _⟩ => ⟨S16x5000x9, .i1⟩
  | .hbm, ⟨75, _⟩ => ⟨S_, .i32⟩
  | .hbm, ⟨76, _⟩ => ⟨S16x5000x9, .i32⟩
  | .hbm, ⟨77, _⟩ => ⟨S16x5000x9, .i32⟩
  | .hbm, ⟨78, _⟩ => ⟨S16x5000x9, .i32⟩
  | .hbm, ⟨79, _⟩ => ⟨S16x5000x9, .i32⟩
  | .hbm, ⟨80, _⟩ => ⟨S_, .i32⟩
  | .hbm, ⟨81, _⟩ => ⟨S16x5000x9, .i32⟩
  | .hbm, ⟨82, _⟩ => ⟨S16x5000x9, .i32⟩
  | .hbm, ⟨83, _⟩ => ⟨S16x5000x9x1, .i32⟩
  | .hbm, ⟨84, _⟩ => ⟨S16x5000x9x1, .i32⟩
  | .hbm, ⟨85, _⟩ => ⟨S16x5000x9x1, .i32⟩
  | .hbm, ⟨86, _⟩ => ⟨S16x5000x9x1, .i32⟩
  | .hbm, ⟨87, _⟩ => ⟨S16x5000x9x4, .i32⟩
  | .hbm, ⟨88, _⟩ => ⟨S16x5000x9, .f32⟩
  | .hbm, ⟨89, _⟩ => ⟨S16x5000x9, .f32⟩
  | .hbm, ⟨90, _⟩ => ⟨S_, .f32⟩
  | .hbm, ⟨91, _⟩ => ⟨S16x5000, .f32⟩
  | .hbm, ⟨92, _⟩ => ⟨S_, .f32⟩
  | .hbm, ⟨93, _⟩ => ⟨S16x5000, .f32⟩
  | .hbm, ⟨94, _⟩ => ⟨S16x5000, .f32⟩
  | .hbm, ⟨95, _⟩ => ⟨S16x5000x9, .f32⟩
  | .hbm, ⟨96, _⟩ => ⟨S_, .f32⟩
  | .hbm, ⟨97, _⟩ => ⟨S16x5000, .f32⟩
  | .hbm, ⟨98, _⟩ => ⟨S16x5000, .f32⟩
  | .hbm, ⟨99, _⟩ => ⟨S_, .i32⟩
  | .hbm, ⟨100, _⟩ => ⟨S_, .f32⟩
  | .hbm, ⟨101, _⟩ => ⟨S16x5120, .f32⟩
  | .hbm, ⟨102, _⟩ => ⟨S_, .i32⟩
  | .hbm, ⟨103, _⟩ => ⟨S_, .f32⟩
  | .hbm, ⟨104, _⟩ => ⟨S16x5120, .f32⟩
  | .hbm, ⟨105, _⟩ => ⟨S_, .f32⟩
  | .hbm, ⟨106, _⟩ => ⟨S16x5000, .f32⟩
  | .hbm, ⟨107, _⟩ => ⟨S_, .f32⟩
  | .hbm, ⟨108, _⟩ => ⟨S_, .f32⟩
  | .hbm, ⟨109, _⟩ => ⟨S16x5120, .f32⟩
  | .hbm, ⟨110, _⟩ => ⟨S16x1x5120, .f32⟩
  | .hbm, ⟨111, _⟩ => ⟨S16x1x5120, .f32⟩
  | .hbm, ⟨112, _⟩ => ⟨S16x1x5120, .f32⟩
  | .hbm, ⟨113, _⟩ => ⟨S16x128, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .local _ .vmem, ⟨0, _⟩ => ⟨S1x1x5120, .f32⟩
  | .local _ .vmem, ⟨1, _⟩ => ⟨S1x1x5120, .f32⟩
  | .local _ .vmem, ⟨2, _⟩ => ⟨S1x1x5120, .f32⟩
  | .local _ .vmem, ⟨3, _⟩ => ⟨S1x1x5120, .f32⟩
  | .local _ .vmem, ⟨4, _⟩ => ⟨S1x1x5120, .f32⟩
  | .local _ .vmem, ⟨5, _⟩ => ⟨S1x1x5120, .f32⟩
  | .local _ .vmem, ⟨6, _⟩ => ⟨S8x128, .f32⟩
  | .local _ .vmem, ⟨7, _⟩ => ⟨S8x128, .f32⟩
  | .local _ .vmem, ⟨8, _⟩ => ⟨S40x128, .f32⟩
  | _, _ => ⟨S16x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_c_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v32 : Ref sig .tc := ⟨.hbm, 47, rfl⟩
abbrev main_c_6 : Ref sig .tc := ⟨.hbm, 48, rfl⟩
abbrev main_c_7 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_c_17 : Ref sig .tc := ⟨.hbm, 99, rfl⟩
abbrev main_call2_v0 : Ref sig .tc := ⟨.hbm, 100, rfl⟩
abbrev main_v67 : Ref sig .tc := ⟨.hbm, 101, rfl⟩
abbrev main_c_18 : Ref sig .tc := ⟨.hbm, 102, rfl⟩
abbrev main_call3_v0 : Ref sig .tc := ⟨.hbm, 103, rfl⟩
abbrev main_v68 : Ref sig .tc := ⟨.hbm, 104, rfl⟩
abbrev main_cst_19 : Ref sig .tc := ⟨.hbm, 105, rfl⟩
abbrev main_v69 : Ref sig .tc := ⟨.hbm, 106, rfl⟩
abbrev main_cst_20 : Ref sig .tc := ⟨.hbm, 107, rfl⟩
abbrev main_call4_v0 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_21 : Ref sig .tc := ⟨.hbm, 114, rfl⟩
abbrev main_v75 : Ref sig .tc := ⟨.hbm, 115, rfl⟩
abbrev main_cst_22 : Ref sig .tc := ⟨.hbm, 116, rfl⟩
abbrev main_v76 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S3 : S_.BroadcastsInDim S3 (![] : Fin 0 → Fin S3.rank)
  bcast_S3_S3x3_0 : S3.BroadcastsInDim S3x3 (![0] : Fin 1 → Fin S3x3.rank)
  bcast_S3_S3x3_1 : S3.BroadcastsInDim S3x3 (![1] : Fin 1 → Fin S3x3.rank)
  shapeCasts_S3x3_S9 : S3x3.ShapeCasts S9
  slices_S16x5000x2_S16x5000x1_0_0_0 : S16x5000x2.Slices ![0, 0, 0] S16x5000x1
  shapeCasts_S16x5000x1_S16x5000 : S16x5000x1.ShapeCasts S16x5000
  slices_S16x5000x2_S16x5000x1_0_0_1 : S16x5000x2.Slices ![0, 0, 1] S16x5000x1
  bcast_S16x5000_S16x5000x1_0_1 : S16x5000.BroadcastsInDim S16x5000x1 (![0, 1] : Fin 2 → Fin S16x5000x1.rank)
  bcast_S9_S1x1x9_2 : S9.BroadcastsInDim S1x1x9 (![2] : Fin 1 → Fin S1x1x9.rank)
  bcast_S16x5000x1_S16x5000x9_0_1_2 : S16x5000x1.BroadcastsInDim S16x5000x9 (![0, 1, 2] : Fin 3 → Fin S16x5000x9.rank)
  bcast_S1x1x9_S16x5000x9_0_1_2 : S1x1x9.BroadcastsInDim S16x5000x9 (![0, 1, 2] : Fin 3 → Fin S16x5000x9.rank)
  bcast_S_S16x5000x9 : S_.BroadcastsInDim S16x5000x9 (![] : Fin 0 → Fin S16x5000x9.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x5000x9_0_1_2 : S16x1x1.BroadcastsInDim S16x5000x9 (![0, 1, 2] : Fin 3 → Fin S16x5000x9.rank)
  bcast_S16x5000x9_S16x5000x9x1_0_1_2 : S16x5000x9.BroadcastsInDim S16x5000x9x1 (![0, 1, 2] : Fin 3 → Fin S16x5000x9x1.rank)
  concatenates_S16x5000x9x1_S16x5000x9x1_S16x5000x9x1_S16x5000x9x1_S16x5000x9x4_d3 : Shape.Concatenates [S16x5000x9x1, S16x5000x9x1, S16x5000x9x1, S16x5000x9x1] S16x5000x9x4 3
  reducesTo_S16x5000x9_S16x5000_d2 : S16x5000x9.ReducesTo [2] S16x5000
  h_S_ : 0 < S_.numel
  bcast_S_S16x5000 : S_.BroadcastsInDim S16x5000 (![] : Fin 0 → Fin S16x5000.rank)
  pads_S16x5000_S16x5120_000_01200 : S16x5000.Pads (![0, 0] : Fin 2 → Nat) ![0, 120] ![0, 0] S16x5120
  shapeCasts_S16x5120_S16x1x5120 : S16x5120.ShapeCasts S16x1x5120
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S5120 : S1x1x5120.ShapeCasts S5120
  shapeCasts_S5120_S40x128 : S5120.ShapeCasts S40x128
  reduces_S40x128_S40 : S40x128.Reduces [1] S40
  shapeCasts_S40_S1x40 : S40.ShapeCasts S1x40
  reduces_S1x40_S1 : S1x40.Reduces [1] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  gather_S16x1x2048x2048_S16x5000x9x4_S16x5000x9_n_0123_n_n_0123_3_1111_wf : GatherDims.WF S16x1x2048x2048 S16x5000x9x4 S16x5000x9 [] [0, 1, 2, 3] [] [0, 1, 2, 3] [] 3 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x5120.size a ≤ S16x1x5120.size a
  hwx0_0 : ∀ i : grid0.Coords, EltTy.bits .f32 = 32 ∨ (Rect.block (s := S16x1x5120) S1x1x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5120.size a ≤ S16x1x5120.size a
  hwx0_1 : ∀ i : grid0.Coords, EltTy.bits .f32 = 32 ∨ (Rect.block (s := S16x1x5120) S1x1x5120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5120.size a ≤ S16x1x5120.size a
  hwx0_2 : ∀ i : grid0.Coords, EltTy.bits .f32 = 32 ∨ (Rect.block (s := S16x1x5120) S1x1x5120.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def gather_S16x1x2048x2048_S16x5000x9x4_S16x5000x9_n_0123_n_n_0123_3_1111 : GatherDims S16x1x2048x2048 S16x5000x9x4 S16x5000x9 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S16x1x2048x2048_S16x5000x9x4_S16x5000x9_n_0123_n_n_0123_3_1111_wf

abbrev win0_0 : Pipeline.Window sig grid0 :=
  Pipeline.Window.ofSpec (Memref.whole main_v71) S1x1x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S1x1x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x1x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x1x2048x2048 : Shape := ⟨4, ![16, 1, 2048, 2048]⟩
abbrev S16x5000x2 : Shape := ⟨3, ![16, 5000, 2]⟩
abbrev S16x5000 : Shape := ⟨2, ![16, 5000]⟩
abbrev S3 : Shape := ⟨1, ![3]⟩
abbrev S_ : Shape := ⟨0, ![]⟩
abbrev S3x3 : Shape := ⟨2, ![3, 3]⟩
abbrev S9 : Shape := ⟨1, ![9]⟩
abbrev S16x5000x1 : Shape := ⟨3, ![16, 5000, 1]⟩
abbrev S1x1x9 : Shape := ⟨3, ![1, 1, 9]⟩
abbrev S16x5000x9 : Shape := ⟨3, ![16, 5000, 9]⟩
abbrev S16 : Shape := ⟨1, ![16]⟩
abbrev S16x1x1 : Shape := ⟨3, ![16, 1, 1]⟩
abbrev S16x5000x9x1 : Shape := ⟨4, ![16, 5000, 9, 1]⟩
abbrev S16x5000x9x4 : Shape := ⟨4, ![16, 5000, 9, 4]⟩

abbrev nBuf : Space → Nat
  | .hbm => 102
  | .vmem => 0
  | .smem => 0
  | _ => 0

abbrev bufTy : (tb : Table) → Fin (tcTables nBuf tb) → BufTy
  | .hbm, ⟨0, _⟩ => ⟨S16x1x2048x2048, .f32⟩
  | .hbm, ⟨1, _⟩ => ⟨S16x5000x2, .i32⟩
  | .hbm, ⟨2, _⟩ => ⟨S16x5000, .f32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S3x3, .i32⟩
  | .hbm, ⟨8, _⟩ => ⟨S3x3, .i32⟩
  | .hbm, ⟨9, _⟩ => ⟨S9, .i32⟩
  | .hbm, ⟨10, _⟩ => ⟨S9, .i32⟩
  | .hbm, ⟨11, _⟩ => ⟨S16x5000x1, .i32⟩
  | .hbm, ⟨12, _⟩ => ⟨S16x5000, .i32⟩
  | .hbm, ⟨13, _⟩ => ⟨S16x5000x1, .i32⟩
  | .hbm, ⟨14, _⟩ => ⟨S16x5000, .i32⟩
  | .hbm, ⟨15, _⟩ => ⟨S16x5000x1, .i32⟩
  | .hbm, ⟨16, _⟩ => ⟨S1x1x9, .i32⟩
  | .hbm, ⟨17, _⟩ => ⟨S16x5000x9, .i32⟩
  | .hbm, ⟨18, _⟩ => ⟨S16x5000x9, .i32⟩
  | .hbm, ⟨19, _⟩ => ⟨S16x5000x9, .i32⟩
  | .hbm, ⟨20, _⟩ => ⟨S16x5000x1, .i32⟩
  | .hbm, ⟨21, _⟩ => ⟨S1x1x9, .i32⟩
  | .hbm, ⟨22, _⟩ => ⟨S16x5000x9, .i32⟩
  | .hbm, ⟨23, _⟩ => ⟨S16x5000x9, .i32⟩
  | .hbm, ⟨24, _⟩ => ⟨S16x5000x9, .i32⟩
  | .hbm, ⟨25, _⟩ => ⟨S_, .i32⟩
  | .hbm, ⟨26, _⟩ => ⟨S16x5000x9, .i32⟩
  | .hbm, ⟨27, _⟩ => ⟨S16x5000x9, .i1⟩
  | .hbm, ⟨28, _⟩ => ⟨S_, .i32⟩
  | .hbm, ⟨29, _⟩ => ⟨S16x5000x9, .i32⟩
  | .hbm, ⟨30, _⟩ => ⟨S16x5000x9, .i1⟩
  | .hbm, ⟨31, _⟩ => ⟨S16x5000x9, .i1⟩
  | .hbm, ⟨32, _⟩ => ⟨S_, .i32⟩
  | .hbm, ⟨33, _⟩ => ⟨S16x5000x9, .i32⟩
  | .hbm, ⟨34, _⟩ => ⟨S16x5000x9, .i1⟩
  | .hbm, ⟨35, _⟩ => ⟨S16x5000x9, .i1⟩
  | .hbm, ⟨36, _⟩ => ⟨S_, .i32⟩
  | .hbm, ⟨37, _⟩ => ⟨S16x5000x9, .i32⟩
  | .hbm, ⟨38, _⟩ => ⟨S16x5000x9, .i1⟩
  | .hbm, ⟨39, _⟩ => ⟨S16x5000x9, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S16x5000x9, .i32⟩
  | .hbm, ⟨44, _⟩ => ⟨S16x5000x9, .i32⟩
  | .hbm, ⟨45, _⟩ => ⟨S_, .i32⟩
  | .hbm, ⟨46, _⟩ => ⟨S16x5000x9, .i32⟩
  | .hbm, ⟨47, _⟩ => ⟨S16x5000x9, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S16x5000x9, .i32⟩
  | .hbm, ⟨52, _⟩ => ⟨S16x5000x9, .i32⟩
  | .hbm, ⟨53, _⟩ => ⟨S_, .i32⟩
  | .hbm, ⟨54, _⟩ => ⟨S16x5000x9, .i32⟩
  | .hbm, ⟨55, _⟩ => ⟨S16x5000x9, .i32⟩
  | .hbm, ⟨56, _⟩ => ⟨S16, .i32⟩
  | .hbm, ⟨57, _⟩ => ⟨S16x1x1, .i32⟩
  | .hbm, ⟨58, _⟩ => ⟨S_, .i32⟩
  | .hbm, ⟨59, _⟩ => ⟨S16x1x1, .i32⟩
  | .hbm, ⟨60, _⟩ => ⟨S16x1x1, .i1⟩
  | .hbm, ⟨61, _⟩ => ⟨S_, .i32⟩
  | .hbm, ⟨62, _⟩ => ⟨S16x1x1, .i32⟩
  | .hbm, ⟨63, _⟩ => ⟨S16x1x1, .i32⟩
  | .hbm, ⟨64, _⟩ => ⟨S16x1x1, .i32⟩
  | .hbm, ⟨65, _⟩ => ⟨S_, .i32⟩
  | .hbm, ⟨66, _⟩ => ⟨S16x5000x9, .i32⟩
  | .hbm, ⟨67, _⟩ => ⟨S16x5000x9, .i1⟩
  | .hbm, ⟨68, _⟩ => ⟨S_, .i32⟩
  | .hbm, ⟨69, _⟩ => ⟨S16x5000x9, .i32⟩
  | .hbm, ⟨70, _⟩ => ⟨S16x5000x9, .i32⟩
  | .hbm, ⟨71, _⟩ => ⟨S16x5000x9, .i32⟩
  | .hbm, ⟨72, _⟩ => ⟨S_, .i32⟩
  | .hbm, ⟨73, _⟩ => ⟨S16x5000x9, .i32⟩
  | .hbm, ⟨74, _⟩ => ⟨S16x5000x9, .i1⟩
  | .hbm, ⟨75, _⟩ => ⟨S_, .i32⟩
  | .hbm, ⟨76, _⟩ => ⟨S16x5000x9, .i32⟩
  | .hbm, ⟨77, _⟩ => ⟨S16x5000x9, .i32⟩
  | .hbm, ⟨78, _⟩ => ⟨S16x5000x9, .i32⟩
  | .hbm, ⟨79, _⟩ => ⟨S16x5000x9, .i32⟩
  | .hbm, ⟨80, _⟩ => ⟨S_, .i32⟩
  | .hbm, ⟨81, _⟩ => ⟨S16x5000x9, .i32⟩
  | .hbm, ⟨82, _⟩ => ⟨S16x5000x9, .i32⟩
  | .hbm, ⟨83, _⟩ => ⟨S16x5000x9x1, .i32⟩
  | .hbm, ⟨84, _⟩ => ⟨S16x5000x9x1, .i32⟩
  | .hbm, ⟨85, _⟩ => ⟨S16x5000x9x1, .i32⟩
  | .hbm, ⟨86, _⟩ => ⟨S16x5000x9x1, .i32⟩
  | .hbm, ⟨87, _⟩ => ⟨S16x5000x9x4, .i32⟩
  | .hbm, ⟨88, _⟩ => ⟨S16x5000x9, .f32⟩
  | .hbm, ⟨89, _⟩ => ⟨S16x5000x9, .f32⟩
  | .hbm, ⟨90, _⟩ => ⟨S_, .f32⟩
  | .hbm, ⟨91, _⟩ => ⟨S16x5000, .f32⟩
  | .hbm, ⟨92, _⟩ => ⟨S16x5000x9, .f32⟩
  | .hbm, ⟨93, _⟩ => ⟨S_, .f32⟩
  | .hbm, ⟨94, _⟩ => ⟨S16x5000, .f32⟩
  | .hbm, ⟨95, _⟩ => ⟨S16x5000, .f32⟩
  | .hbm, ⟨96, _⟩ => ⟨S16x5000, .f32⟩
  | .hbm, ⟨97, _⟩ => ⟨S16x5000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S16x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_c_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v32 : Ref sig .tc := ⟨.hbm, 47, rfl⟩
abbrev main_c_6 : Ref sig .tc := ⟨.hbm, 48, rfl⟩
abbrev main_c_7 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x3_0 : S3.BroadcastsInDim S3x3 (![0] : Fin 1 → Fin S3x3.rank)
  bcast_S3_S3x3_1 : S3.BroadcastsInDim S3x3 (![1] : Fin 1 → Fin S3x3.rank)
  shapeCasts_S3x3_S9 : S3x3.ShapeCasts S9
  slices_S16x5000x2_S16x5000x1_0_0_0 : S16x5000x2.Slices ![0, 0, 0] S16x5000x1
  shapeCasts_S16x5000x1_S16x5000 : S16x5000x1.ShapeCasts S16x5000
  slices_S16x5000x2_S16x5000x1_0_0_1 : S16x5000x2.Slices ![0, 0, 1] S16x5000x1
  bcast_S16x5000_S16x5000x1_0_1 : S16x5000.BroadcastsInDim S16x5000x1 (![0, 1] : Fin 2 → Fin S16x5000x1.rank)
  bcast_S9_S1x1x9_2 : S9.BroadcastsInDim S1x1x9 (![2] : Fin 1 → Fin S1x1x9.rank)
  bcast_S16x5000x1_S16x5000x9_0_1_2 : S16x5000x1.BroadcastsInDim S16x5000x9 (![0, 1, 2] : Fin 3 → Fin S16x5000x9.rank)
  bcast_S1x1x9_S16x5000x9_0_1_2 : S1x1x9.BroadcastsInDim S16x5000x9 (![0, 1, 2] : Fin 3 → Fin S16x5000x9.rank)
  bcast_S_S16x5000x9 : S_.BroadcastsInDim S16x5000x9 (![] : Fin 0 → Fin S16x5000x9.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x5000x9_0_1_2 : S16x1x1.BroadcastsInDim S16x5000x9 (![0, 1, 2] : Fin 3 → Fin S16x5000x9.rank)
  bcast_S16x5000x9_S16x5000x9x1_0_1_2 : S16x5000x9.BroadcastsInDim S16x5000x9x1 (![0, 1, 2] : Fin 3 → Fin S16x5000x9x1.rank)
  concatenates_S16x5000x9x1_S16x5000x9x1_S16x5000x9x1_S16x5000x9x1_S16x5000x9x4_d3 : Shape.Concatenates [S16x5000x9x1, S16x5000x9x1, S16x5000x9x1, S16x5000x9x1] S16x5000x9x4 3
  reducesTo_S16x5000x9_S16x5000_d2 : S16x5000x9.ReducesTo [2] S16x5000
  h_S_ : 0 < S_.numel
  reducesTo_S16x5000_S_d0_1 : S16x5000.ReducesTo [0, 1] S_
  gather_S16x1x2048x2048_S16x5000x9x4_S16x5000x9_n_0123_n_n_0123_3_1111_wf : GatherDims.WF S16x1x2048x2048 S16x5000x9x4 S16x5000x9 [] [0, 1, 2, 3] [] [0, 1, 2, 3] [] 3 ![1, 1, 1, 1]

variable [Facts₀]

def gather_S16x1x2048x2048_S16x5000x9x4_S16x5000x9_n_0123_n_n_0123_3_1111 : GatherDims S16x1x2048x2048 S16x5000x9x4 S16x5000x9 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S16x1x2048x2048_S16x5000x9x4_S16x5000x9_n_0123_n_n_0123_3_1111_wf

class Facts : Prop extends Facts₀ where

variable [Facts]
-- ==== Proof.RefRun.lean ====
/-
  The reference program's run, read stage by stage.

  The reference's @main is one list of 99 host operations. Cutting the list at a few points and opening each
  stretch over an arbitrary valuation shows that the buffer each stage writes holds that stage's function of the
  argument arrays; the four-operand concatenate is its own cut, its operands read at their literal references.
  The last stage is the result, and no operation writes an argument, so every weakly fair execution ends with the
  result at the composed term and the arguments unchanged.
-/
import proofs.«414909_j37056977830580_4_alg».proof.Proof.RunP
import proofs.«414909_j37056977830580_4_alg».proof.Proof.ReadP
import Idealize.ShloMosaic.Lib.StableHlo.Run
import Idealize.ShloMosaic.PureOps.Ideal

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (m : (ℓ : Loc nD τ sig) → Buf (Elt Ideal) ℓ) (c : Dev nD)

namespace Chain

/-- The whole line of operations. -/
abbrev P : List (HloOp τ sig (Elt Ideal)) := ops (F := Ideal)

/-- Its operations number `a` to `b - 1`. -/
abbrev seg (a b : Nat) : List (HloOp τ sig (Elt Ideal)) := List.drop a (List.take b P)

/-- Running one list of operations after another is running their concatenation. -/
theorem after_append (A B : List (HloOp τ sig (Elt Ideal))) (V : Valuation τ sig (Elt Ideal)) :
    after (A ++ B) V = after B (after A V) := by
  induction A generalizing V with
  | nil => rfl
  | cons a A ih => exact ih _

/-- The buffers' contents after the first `k` operations. -/
def A (k : Nat) : Valuation τ sig (Elt Ideal) := after (List.take k P) (fun b => m (c, b))

/-- The first `b` operations are the first `a` and then those from `a` to `b - 1`. -/
theorem A_step (a b : Nat) (h : a ≤ b) : A m c b = after (seg a b) (A m c a) := by
  unfold A seg
  rw [← after_append]
  congr 1
  conv_lhs => rw [← List.take_append_drop a (List.take b P)]
  rw [List.take_take, Nat.min_eq_left h]

/-- The whole line is its first `k` operations and then the rest. -/
theorem cut (k : Nat) : after (ops (F := Ideal)) (fun b => m (c, b)) = after (List.drop k P) (A m c k) := by
  unfold A
  rw [← after_append, List.take_append_drop]

/-- No operation writes an argument. -/
theorem P_keeps_arg0 : ∀ op ∈ (P : List (HloOp τ sig (Elt Ideal))), Proc.devRef .tc main_arg0 ∉ op.writes :=
  List.forall_iff_forall_mem.mp (by
    simp only [P, ops, TRef.unary, TRef.binary, List.Forall, nullary_writes, unary_writes, binary_writes, ternary_writes, reshape_writes, nary_writes, Finset.mem_singleton]
    repeat' apply And.intro
    all_goals exact devRef_ne_of_ne (by decide))
theorem P_keeps_arg1 : ∀ op ∈ (P : List (HloOp τ sig (Elt Ideal))), Proc.devRef .tc main_arg1 ∉ op.writes :=
  List.forall_iff_forall_mem.mp (by
    simp only [P, ops, TRef.unary, TRef.binary, List.Forall, nullary_writes, unary_writes, binary_writes, ternary_writes, reshape_writes, nary_writes, Finset.mem_singleton]
    repeat' apply And.intro
    all_goals exact devRef_ne_of_ne (by decide))
theorem P_keeps_arg2 : ∀ op ∈ (P : List (HloOp τ sig (Elt Ideal))), Proc.devRef .tc main_arg2 ∉ op.writes :=
  List.forall_iff_forall_mem.mp (by
    simp only [P, ops, TRef.unary, TRef.binary, List.Forall, nullary_writes, unary_writes, binary_writes, ternary_writes, reshape_writes, nary_writes, Finset.mem_singleton]
    repeat' apply And.intro
    all_goals exact devRef_ne_of_ne (by decide))

/-- So after any number of them each is as launched. -/
theorem A_arg0 (k : Nat) : A m c k (Proc.devRef .tc main_arg0) = m ((c.tc : Thread nD τ).loc main_arg0) := by
  unfold A
  exact after_of_forall_not_mem _ _ (fun op h => P_keeps_arg0 op (List.mem_of_mem_take h))
theorem A_arg2 (k : Nat) : A m c k (Proc.devRef .tc main_arg2) = m ((c.tc : Thread nD τ).loc main_arg2) := by
  unfold A
  exact after_of_forall_not_mem _ _ (fun op h => P_keeps_arg2 op (List.mem_of_mem_take h))

variable (G : Valuation τ sig (Elt Ideal))
  (x0 : (⟨S16x1x2048x2048, .f32⟩ : BufTy).Contents (Elt Ideal))
  (x1 : (⟨S16x5000x2, .i32⟩ : BufTy).Contents (Elt Ideal))
  (x2 : (⟨S16x5000, .f32⟩ : BufTy).Contents (Elt Ideal))

/-- Operations 0 to 21: the two coordinate arrays of the neighbours. -/
theorem s1 (h1 : G (Proc.devRef .tc main_arg1) = x1) :
    after (seg 0 22) G (Proc.devRef .tc main_v15) = val_main_v15 (F := Ideal) x1
    ∧ after (seg 0 22) G (Proc.devRef .tc main_v20) = val_main_v20 (F := Ideal) x1 := by
  simp only [seg, P, ops, TRef.unary, TRef.binary, List.drop_succ_cons, List.drop_zero, List.take_succ_cons, List.take_zero]
  refine ⟨?_, ?_⟩
  · after_results_simp
    rw [h1]
    rfl
  · after_results_simp
    rw [h1]
    rfl

/-- Operations 22 to 36: which neighbours are valid. -/
theorem s2 (h15 : G (Proc.devRef .tc main_v15) = val_main_v15 (F := Ideal) x1) (h20 : G (Proc.devRef .tc main_v20) = val_main_v20 (F := Ideal) x1) :
    after (seg 22 37) G (Proc.devRef .tc main_v31) = val_main_v31 (F := Ideal) x1
    ∧ after (seg 22 37) G (Proc.devRef .tc main_v15) = G (Proc.devRef .tc main_v15)
    ∧ after (seg 22 37) G (Proc.devRef .tc main_v20) = G (Proc.devRef .tc main_v20) := by
  simp only [seg, P, ops, TRef.unary, TRef.binary, List.drop_succ_cons, List.drop_zero, List.take_succ_cons, List.take_zero]
  refine ⟨?_, ?_, ?_⟩
  · after_results_simp
    rw [h15, h20]
    rfl
  · after_results_simp
  · after_results_simp

/-- Operations 37 to 44: the first coordinate clipped. -/
theorem s3 (h15 : G (Proc.devRef .tc main_v15) = val_main_v15 (F := Ideal) x1) :
    after (seg 37 45) G (Proc.devRef .tc main_v32) = val_main_v32 (F := Ideal) x1
    ∧ after (seg 37 45) G (Proc.devRef .tc main_v20) = G (Proc.devRef .tc main_v20)
    ∧ after (seg 37 45) G (Proc.devRef .tc main_v31) = G (Proc.devRef .tc main_v31) := by
  simp only [seg, P, ops, TRef.unary, TRef.binary, List.drop_succ_cons, List.drop_zero, List.take_succ_cons, List.take_zero]
  refine ⟨?_, ?_, ?_⟩
  · after_results_simp
    rw [h15]
    rfl
  · after_results_simp
  · after_results_simp

/-- Operations 45 to 52: the second coordinate clipped. -/
theorem s4 (h20 : G (Proc.devRef .tc main_v20) = val_main_v20 (F := Ideal) x1) :
    after (seg 45 53) G (Proc.devRef .tc main_v33) = val_main_v33 (F := Ideal) x1
    ∧ after (seg 45 53) G (Proc.devRef .tc main_v31) = G (Proc.devRef .tc main_v31)
    ∧ after (seg 45 53) G (Proc.devRef .tc main_v32) = G (Proc.devRef .tc main_v32) := by
  simp only [seg, P, ops, TRef.unary, TRef.binary, List.drop_succ_cons, List.drop_zero, List.take_succ_cons, List.take_zero]
  refine ⟨?_, ?_, ?_⟩
  · after_results_simp
    rw [h20]
    rfl
  · after_results_simp
  · after_results_simp

/-- Operations 53 to 83: the four coordinate arrays the gather's index array is joined from. -/
theorem s5a (h32 : G (Proc.devRef .tc main_v32) = val_main_v32 (F := Ideal) x1) (h33 : G (Proc.devRef .tc main_v33) = val_main_v33 (F := Ideal) x1) :
    after (seg 53 84) G (Proc.devRef .tc main_v54) = val_main_v54 (F := Ideal)
    ∧ after (seg 53 84) G (Proc.devRef .tc main_v55) = val_main_v55 (F := Ideal)
    ∧ after (seg 53 84) G (Proc.devRef .tc main_v56) = val_main_v56 (F := Ideal) x1
    ∧ after (seg 53 84) G (Proc.devRef .tc main_v57) = val_main_v57 (F := Ideal) x1
    ∧ after (seg 53 84) G (Proc.devRef .tc main_v31) = G (Proc.devRef .tc main_v31) := by
  simp only [seg, P, ops, TRef.unary, TRef.binary, List.drop_succ_cons, List.drop_zero, List.take_succ_cons, List.take_zero]
  refine ⟨?_, ?_, ?_, ?_, ?_⟩
  · after_results_simp
    rfl
  · after_results_simp
    rfl
  · after_results_simp
    rw [h32]
    rfl
  · after_results_simp
    rw [h33]
    rfl
  · after_results_simp

/-- Operation 84: the gather's index array, the four joined. -/
theorem s5b (h54 : G (Proc.devRef .tc main_v54) = val_main_v54 (F := Ideal)) (h55 : G (Proc.devRef .tc main_v55) = val_main_v55 (F := Ideal))
    (h56 : G (Proc.devRef .tc main_v56) = val_main_v56 (F := Ideal) x1) (h57 : G (Proc.devRef .tc main_v57) = val_main_v57 (F := Ideal) x1) :
    after (seg 84 85) G (Proc.devRef .tc main_v58) = val_main_v58 (F := Ideal) x1
    ∧ after (seg 84 85) G (Proc.devRef .tc main_v31) = G (Proc.devRef .tc main_v31) := by
  simp only [seg, P, ops, TRef.unary, TRef.binary, List.drop_succ_cons, List.drop_zero, List.take_succ_cons, List.take_zero]
  refine ⟨?_, ?_⟩
  · simp only [after_cons, after_nil]
    rw [nary_result]
    show concatenate S16x5000x9x4 3 [⟨S16x5000x9x1, G (Proc.devRef .tc main_v54)⟩, ⟨S16x5000x9x1, G (Proc.devRef .tc main_v55)⟩,
      ⟨S16x5000x9x1, G (Proc.devRef .tc main_v56)⟩, ⟨S16x5000x9x1, G (Proc.devRef .tc main_v57)⟩]
      concatenates_S16x5000x9x1_S16x5000x9x1_S16x5000x9x1_S16x5000x9x1_S16x5000x9x4_d3 = _
    rw [h54, h55, h56, h57]
    rfl
  · after_results_simp

/-- Operations 85 to 98: the gather, the counts, the sums, the means, the mean squared difference. -/
theorem s6 (h0 : G (Proc.devRef .tc main_arg0) = x0) (h2 : G (Proc.devRef .tc main_arg2) = x2) (h58 : G (Proc.devRef .tc main_v58) = val_main_v58 (F := Ideal) x1) (h31 : G (Proc.devRef .tc main_v31) = val_main_v31 (F := Ideal) x1) :
    after (List.drop 85 P) G (Proc.devRef .tc main_v68) = val_main_v68 (F := Ideal) x0 x1 x2 := by
  simp only [seg, P, ops, TRef.unary, TRef.binary, List.drop_succ_cons, List.drop_zero, List.take_succ_cons, List.take_zero]
  after_results_simp
  rw [h0, h2, h58, h31]
  rfl

/-! The cut points, one after the other, from the launched arguments. -/

theorem A22 : A m c 22 (Proc.devRef .tc main_v15) = val_main_v15 (F := Ideal) (m ((c.tc : Thread nD τ).loc main_arg1))
    ∧ A m c 22 (Proc.devRef .tc main_v20) = val_main_v20 (F := Ideal) (m ((c.tc : Thread nD τ).loc main_arg1)) :=
  s1 (fun b => m (c, b)) _ rfl

theorem A37 : A m c 37 (Proc.devRef .tc main_v31) = val_main_v31 (F := Ideal) (m ((c.tc : Thread nD τ).loc main_arg1))
    ∧ A m c 37 (Proc.devRef .tc main_v15) = val_main_v15 (F := Ideal) (m ((c.tc : Thread nD τ).loc main_arg1))
    ∧ A m c 37 (Proc.devRef .tc main_v20) = val_main_v20 (F := Ideal) (m ((c.tc : Thread nD τ).loc main_arg1)) := by
  rw [A_step m c 22 37 (by decide)]
  have h := s2 (A m c 22) _ (A22 m c).1 (A22 m c).2
  exact ⟨h.1, h.2.1.trans (A22 m c).1, h.2.2.trans (A22 m c).2⟩

theorem A45 : A m c 45 (Proc.devRef .tc main_v32) = val_main_v32 (F := Ideal) (m ((c.tc : Thread nD τ).loc main_arg1))
    ∧ A m c 45 (Proc.devRef .tc main_v20) = val_main_v20 (F := Ideal) (m ((c.tc : Thread nD τ).loc main_arg1))
    ∧ A m c 45 (Proc.devRef .tc main_v31) = val_main_v31 (F := Ideal) (m ((c.tc : Thread nD τ).loc main_arg1)) := by
  rw [A_step m c 37 45 (by decide)]
  have h := s3 (A m c 37) _ (A37 m c).2.1
  exact ⟨h.1, h.2.1.trans (A37 m c).2.2, h.2.2.trans (A37 m c).1⟩

theorem A53 : A m c 53 (Proc.devRef .tc main_v33) = val_main_v33 (F := Ideal) (m ((c.tc : Thread nD τ).loc main_arg1))
    ∧ A m c 53 (Proc.devRef .tc main_v31) = val_main_v31 (F := Ideal) (m ((c.tc : Thread nD τ).loc main_arg1))
    ∧ A m c 53 (Proc.devRef .tc main_v32) = val_main_v32 (F := Ideal) (m ((c.tc : Thread nD τ).loc main_arg1)) := by
  rw [A_step m c 45 53 (by decide)]
  have h := s4 (A m c 45) _ (A45 m c).2.1
  exact ⟨h.1, h.2.1.trans (A45 m c).2.2, h.2.2.trans (A45 m c).1⟩

theorem A84 : A m c 84 (Proc.devRef .tc main_v54) = val_main_v54 (F := Ideal)
    ∧ A m c 84 (Proc.devRef .tc main_v55) = val_main_v55 (F := Ideal)
    ∧ A m c 84 (Proc.devRef .tc main_v56) = val_main_v56 (F := Ideal) (m ((c.tc : Thread nD τ).loc main_arg1))
    ∧ A m c 84 (Proc.devRef .tc main_v57) = val_main_v57 (F := Ideal) (m ((c.tc : Thread nD τ).loc main_arg1))
    ∧ A m c 84 (Proc.devRef .tc main_v31) = val_main_v31 (F := Ideal) (m ((c.tc : Thread nD τ).loc main_arg1)) := by
  rw [A_step m c 53 84 (by decide)]
  have h := s5a (A m c 53) _ (A53 m c).2.2 (A53 m c).1
  exact ⟨h.1, h.2.1, h.2.2.1, h.2.2.2.1, h.2.2.2.2.trans (A53 m c).2.1⟩

theorem A85 : A m c 85 (Proc.devRef .tc main_v58) = val_main_v58 (F := Ideal) (m ((c.tc : Thread nD τ).loc main_arg1))
    ∧ A m c 85 (Proc.devRef .tc main_v31) = val_main_v31 (F := Ideal) (m ((c.tc : Thread nD τ).loc main_arg1)) := by
  rw [A_step m c 84 85 (by decide)]
  have h := s5b (A m c 84) _ (A84 m c).1 (A84 m c).2.1 (A84 m c).2.2.1 (A84 m c).2.2.2.1
  exact ⟨h.1, h.2.trans (A84 m c).2.2.2.2⟩

end Chain

/-- The operations read at the result buffer: the last stage of the launched arguments. -/
theorem ref_after (m : (ℓ : Loc nD τ sig) → Buf (Elt Ideal) ℓ) (c : Dev nD) :
    StableHlo.after (ops (F := Ideal)) (fun b => m (c, b)) (Proc.devRef .tc main_v68)
      = val_main_v68 (F := Ideal) (m ((c.tc : Thread nD τ).loc main_arg0)) (m ((c.tc : Thread nD τ).loc main_arg1)) (m ((c.tc : Thread nD τ).loc main_arg2)) := by
  rw [Chain.cut m c 85]
  exact Chain.s6 (Chain.A m c 85) _ _ _ (Chain.A_arg0 m c 85) (Chain.A_arg2 m c 85) (Chain.A85 m c).1 (Chain.A85 m c).2

/-- The argument buffers are as launched. -/
theorem ref_after_arg0 (m : (ℓ : Loc nD τ sig) → Buf (Elt Ideal) ℓ) (c : Dev nD) :
    StableHlo.after (ops (F := Ideal)) (fun b => m (c, b)) (Proc.devRef .tc main_arg0) = m ((c.tc : Thread nD τ).loc main_arg0) :=
  StableHlo.after_of_forall_not_mem _ _ Chain.P_keeps_arg0
theorem ref_after_arg1 (m : (ℓ : Loc nD τ sig) → Buf (Elt Ideal) ℓ) (c : Dev nD) :
    StableHlo.after (ops (F := Ideal)) (fun b => m (c, b)) (Proc.devRef .tc main_arg1) = m ((c.tc : Thread nD τ).loc main_arg1) :=
  StableHlo.after_of_forall_not_mem _ _ Chain.P_keeps_arg1
theorem ref_after_arg2 (m : (ℓ : Loc nD τ sig) → Buf (Elt Ideal) ℓ) (c : Dev nD) :
    StableHlo.after (ops (F := Ideal)) (fun b => m (c, b)) (Proc.devRef .tc main_arg2) = m ((c.tc : Thread nD τ).loc main_arg2) :=
  StableHlo.after_of_forall_not_mem _ _ Chain.P_keeps_arg2

/-- Every weakly fair execution of the reference terminates with its result at the composed term of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = res_main_v68 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v68).trans ((ref_after m c).trans (val_main_v68_eq m c).symm),
      (h c main_arg0).trans (ref_after_arg0 m c),
      (h c main_arg1).trans (ref_after_arg1 m c),
      (h c main_arg2).trans (ref_after_arg2 m c)⟩)
    (run_seq scopedRefs_eq scopedSems_eq defs main (fun _ => ops) main_eq (fun _ => ops_sub) m ρ)

end Cert.ReferenceIdeal.RefRun

end
-- ==== Proof.KKit.lean ====
/-
  The frame kit of `Kernel`: what the region finds and what surrounds it.

  @main is eleven stretches of host operations, the one kernel region, and four host operations after it. This
  module fixes the contents of every buffer when the region is entered (`V0`: the launch memory after the eleven
  stretches), shows that @main is those stretches, the region and the tail (`hmain`), that the tail touches only
  unscoped buffers, allocates nothing and writes no array of the pipeline, and that no host operation writes an
  argument array (`V_main_argK`, `W_main_argK`), from which the frame claim follows from a frame run (`frame_of`).
  It also names what the kernel body's three control cases are stated over: the two branch conditions as functions
  of the grid point, decided over the 16 points (the first holds at the points ≡ 0 mod 8, the second at those
  ≡ 7 mod 8); where the output window is idle and where it is written back; the staging and scratch memrefs.
  Everything is generic in the float instance.
-/
import proofs.«414909_j37056977830580_4_alg».proof.Proof.Gen.Kernel.Launch
import proofs.«414909_j37056977830580_4_alg».proof.Proof.Gen.Kernel.Skeleton
import proofs.«414909_j37056977830580_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The eleven stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10]

/-- Core `c`'s buffer contents when the region is entered: the launch memory after the host operations before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stretches before the region, the region, and the four operations after it; so it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the buffer `b`, when `b` differs from every result buffer. -/
local macro "prefix_keeps" : tactic => `(tactic| (
  simp only [prefixOps, hostOps0, hostOps0_1, hostOps0_2, hostOps0_3, hostOps0_4, hostOps0_5, hostOps0_6, hostOps0_7, hostOps0_8, hostOps0_9, hostOps0_10, StableHlo.TRef.unary, StableHlo.TRef.binary, StableHlo.TRef.ternary, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

local macro "tail_keeps" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by prefix_keeps))

/-- And the operations after the region leave it so. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_keeps)),
    Pipeline.withArrays_of_ne _ c (V0 m c) _ main_arg0 (by exact (by decide : ∀ w, Pipeline.arrRef spec0 w ≠ main_arg0))]
  exact V_main_arg0 m c

/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by prefix_keeps))

/-- And the operations after the region leave it so. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_keeps)),
    Pipeline.withArrays_of_ne _ c (V0 m c) _ main_arg1 (by exact (by decide : ∀ w, Pipeline.arrRef spec0 w ≠ main_arg1))]
  exact V_main_arg1 m c

/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by prefix_keeps))

/-- And the operations after the region leave it so. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_keeps)),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no window stages an argument array, so each ends as the operations after the region
    leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The first branch of the body (reset the accumulator): the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch of the body (reduce and store the output): the second grid coordinate is the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle, and the pipeline does not write it back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the output window is live. -/
theorem liveAt0_3 : ∀ t : Fin cfg0.N, cond0_1 (grid0.coords t) → cfg0.idle 3 (grid0.coords t) = false := by decide +kernel

/-! ## The memrefs the body is called on -/

/-- One staging buffer of the output window, through which its contents are stated. -/
abbrev VO0_3 : View sig .tc .vmem S8x128 .f32 := (Memref.whole cc0_stg3_0 : Memref sig .tc .vmem S8x128 .f32).view
abbrev ms0_0 (t : Fin cfg0.N) : Memref sig .tc .vmem S1x1x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
/-- The accumulator: a whole scoped buffer of the kernel's own, carried between grid points. -/
abbrev scM0_0 : Memref sig .tc .vmem S40x128 .f32 := Memref.whole cc0_scratch0
abbrev VS0_0 : View sig .tc .vmem S40x128 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/-
  The kernel body at a point where the accumulator is reset (the first branch taken, the second not).

  On whole staging memrefs, the three inputs at their contents, the output's buffer at contents it hands back
  untouched, and the accumulator at anything, the body runs to its end: it loads the accumulator (the value is not
  used), overwrites it whole with zeros, loads the three input blocks, reads the zeros back and stores the first
  row's contribution over them. The pieces the accumulator ends with are the witness the symbolic run finds.
-/
import proofs.«414909_j37056977830580_4_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x1x5120 .f32) (harg2 : arg2.IsWhole) (arg3 : Memref sig .tc .vmem S1x1x5120 .f32) (harg3 : arg3.IsWhole) (arg4 : Memref sig .tc .vmem S1x1x5120 .f32) (harg4 : arg4.IsWhole) (arg5 : Memref sig .tc .vmem S8x128 .f32) (harg5 : arg5.IsWhole) (arg6 : Memref sig .tc .vmem S40x128 .f32) (harg6 : arg6.IsWhole) (hc0 : cond0_0 i) (hc1 : ¬cond0_1 i)
    (x0 x1 x2 : Vec F S1x1x5120 .f32) :
    Σ' (L3 : List (View.Piece (Elt F) S8x128 .f32)), { LS0 : List (View.Piece (Elt F) S40x128 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__station_loss_kernel i arg2 harg2 arg3 harg3 arg4 harg4 arg5 harg5 arg6 harg6) K } := by
  refine ⟨[], ?_, fun xi3 E K => ?run⟩
  case run =>
    simp only [cc0__station_loss_kernel_eq_skeleton]; unfold cc0__station_loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KRunB.lean ====
/-
  The kernel body at a point where neither branch is taken: one more row is added to the accumulator.

  The accumulator holds what the point before left; the body loads the three input blocks and the accumulator and
  stores the accumulator plus this row's contribution. The output's buffer is handed back untouched.
-/
import proofs.«414909_j37056977830580_4_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x1x5120 .f32) (harg2 : arg2.IsWhole) (arg3 : Memref sig .tc .vmem S1x1x5120 .f32) (harg3 : arg3.IsWhole) (arg4 : Memref sig .tc .vmem S1x1x5120 .f32) (harg4 : arg4.IsWhole) (arg5 : Memref sig .tc .vmem S8x128 .f32) (harg5 : arg5.IsWhole) (arg6 : Memref sig .tc .vmem S40x128 .f32) (harg6 : arg6.IsWhole) (hc0 : ¬cond0_0 i) (hc1 : ¬cond0_1 i)
    (x0 x1 x2 : Vec F S1x1x5120 .f32) (xs0 : Vec F S40x128 .f32) :
    Σ' (L3 : List (View.Piece (Elt F) S8x128 .f32)), { LS0 : List (View.Piece (Elt F) S40x128 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__station_loss_kernel i arg2 harg2 arg3 harg3 arg4 harg4 arg5 harg5 arg6 harg6) K } := by
  refine ⟨[], ?_, fun xi3 E K => ?run⟩
  case run =>
    simp only [cc0__station_loss_kernel_eq_skeleton]; unfold cc0__station_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KRunC.lean ====
/-
  The kernel body at a point where the second branch is taken (and the first not): the last row of a core's
  share is added, and the accumulator is reduced into the output block.

  The accumulator holds what the point before left; the body adds this row's contribution, reads the accumulator
  back, sums it, loads the output's buffer (the value is not used) and overwrites it whole with the block that has
  the sum at entry (0, 0) and zero elsewhere. The output's buffer may start at anything.
-/
import proofs.«414909_j37056977830580_4_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x1x5120 .f32) (harg2 : arg2.IsWhole) (arg3 : Memref sig .tc .vmem S1x1x5120 .f32) (harg3 : arg3.IsWhole) (arg4 : Memref sig .tc .vmem S1x1x5120 .f32) (harg4 : arg4.IsWhole) (arg5 : Memref sig .tc .vmem S8x128 .f32) (harg5 : arg5.IsWhole) (arg6 : Memref sig .tc .vmem S40x128 .f32) (harg6 : arg6.IsWhole) (hc0 : ¬cond0_0 i) (hc1 : cond0_1 i)
    (x0 x1 x2 : Vec F S1x1x5120 .f32) (xs0 : Vec F S40x128 .f32) :
    Σ' (L3 : List (View.Piece (Elt F) S8x128 .f32)), { LS0 : List (View.Piece (Elt F) S40x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__station_loss_kernel i arg2 harg2 arg3 harg3 arg4 harg4 arg5 harg5 arg6 harg6) K } := by
  refine ⟨?_, ?_, fun E K => ?run⟩
  case run =>
    simp only [cc0__station_loss_kernel_eq_skeleton]; unfold cc0__station_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KFrame.lean ====
/-
  The frame of `Kernel`: the program runs to its end, faults nowhere and leaves its three argument arrays unchanged.

  The kernel body has three control cases over the 16 grid points (two cores × 8 rows): at a core's first row it
  resets the accumulator and adds the row; at the rows in between it adds the row; at the last row it adds the row,
  sums the accumulator and stores the output block. What the accumulator holds after each point is defined by
  recursion on the point (`accAt`): the case's pieces read back, over what the point before left. The output's
  staging buffer is stored only at the last row of a core (`outAt`); elsewhere the window is idle and its buffer
  is handed back as found. The region's invariant (`PhiS`) carries the accumulator at `accAt` of the point before.
  From these the body's obligation holds at every point (`sound_body`: the inputs' buffers hold their blocks, the
  closed forms of the two conditions select the case, the case's run applies), the launch theorem for a carried
  scratch with host operations around the region gives the run (`run_main`), and the frame claim follows
  (`frame`). Generic in the float instance.
-/
import proofs.«414909_j37056977830580_4_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

theorem not7_of_0 {n : ℕ} (h0 : n % 8 = 0) : ¬ n % 8 = 7 := by omega

/-- The reset case's run at point `t`, on the point's memrefs and input blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => not7_of_0 h0 ((hcond0_1 t).mp h)) (iblk m c 0 t) (iblk m c 1 t) (iblk m c 2 t)

/-- The middle case's run at point `t`, the accumulator at `xs`. -/
abbrev runB (c : Dev nD) (t : Fin cfg0.N) (h0 : ¬ t.val % 8 = 0) (h1 : ¬ t.val % 8 = 7) (xs : Vec F S40x128 .f32) :=
  kernelRun0_B (F := F) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk m c 0 t) (iblk m c 1 t) (iblk m c 2 t) xs

/-- The last-row case's run at point `t`, the accumulator at `xs`. -/
abbrev runC (c : Dev nD) (t : Fin cfg0.N) (h0 : ¬ t.val % 8 = 0) (h1 : t.val % 8 = 7) (xs : Vec F S40x128 .f32) :=
  kernelRun0_C (F := F) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t) xs

/-- Each case's pieces for the accumulator tile it, so they cover it. -/
theorem scoverA (c : Dev nD) (t : Fin cfg0.N) (h0 : t.val % 8 = 0) (y : S40x128.Idx) :
    ∃ pc ∈ (runA m c t h0).2.1, y ∈ pc.1.set :=
  View.cover_of_tiledL (runA m c t h0).2.1 S40x128.size (by sl_kernel_rfl) y
theorem scoverB (c : Dev nD) (t : Fin cfg0.N) (h0 : ¬ t.val % 8 = 0) (h1 : ¬ t.val % 8 = 7) (xs : Vec F S40x128 .f32) (y : S40x128.Idx) :
    ∃ pc ∈ (runB m c t h0 h1 xs).2.1, y ∈ pc.1.set :=
  View.cover_of_tiledL (runB m c t h0 h1 xs).2.1 S40x128.size (by sl_kernel_rfl) y
theorem scoverC (c : Dev nD) (t : Fin cfg0.N) (h0 : ¬ t.val % 8 = 0) (h1 : t.val % 8 = 7) (xs : Vec F S40x128 .f32) (y : S40x128.Idx) :
    ∃ pc ∈ (runC m c t h0 h1 xs).2.1, y ∈ pc.1.set :=
  View.cover_of_tiledL (runC m c t h0 h1 xs).2.1 S40x128.size (by sl_kernel_rfl) y
/-- The last-row case's one store into the output's buffer covers it. -/
theorem coverC (c : Dev nD) (t : Fin cfg0.N) (h0 : ¬ t.val % 8 = 0) (h1 : t.val % 8 = 7) (xs : Vec F S40x128 .f32) (y : S8x128.Idx) :
    ∃ pc ∈ (runC m c t h0 h1 xs).1, y ∈ pc.1.set :=
  View.cover_of_tiledL (runC m c t h0 h1 xs).1 S8x128.size (by sl_kernel_rfl) y

/-- What each case leaves in the accumulator: its pieces read back. -/
def soutA (c : Dev nD) (t : Fin cfg0.N) (h0 : t.val % 8 = 0) : Vec F S40x128 .f32 :=
  VS0_0.read (Elt F) (VS0_0.writes (Elt F) VS0_0.junk (runA m c t h0).2.1)
def soutB (c : Dev nD) (t : Fin cfg0.N) (h0 : ¬ t.val % 8 = 0) (h1 : ¬ t.val % 8 = 7) (xs : Vec F S40x128 .f32) : Vec F S40x128 .f32 :=
  VS0_0.read (Elt F) (VS0_0.writes (Elt F) VS0_0.junk (runB m c t h0 h1 xs).2.1)
def soutC (c : Dev nD) (t : Fin cfg0.N) (h0 : ¬ t.val % 8 = 0) (h1 : t.val % 8 = 7) (xs : Vec F S40x128 .f32) : Vec F S40x128 .f32 :=
  VS0_0.read (Elt F) (VS0_0.writes (Elt F) VS0_0.junk (runC m c t h0 h1 xs).2.1)
/-- What the last-row case leaves in the output's staging buffer. -/
def outC (c : Dev nD) (t : Fin cfg0.N) (h0 : ¬ t.val % 8 = 0) (h1 : t.val % 8 = 7) (xs : Vec F S40x128 .f32) : Vec F S8x128 .f32 :=
  VO0_3.read (Elt F) (VO0_3.writes (Elt F) VO0_3.junk (runC m c t h0 h1 xs).1)

theorem not0_of_7 {n : ℕ} (h1 : n % 8 = 7) : ¬ n % 8 = 0 := by omega

/-! ## The accumulator and the output's buffer after each point -/

/-- The accumulator after the body at position `n`: reset and first row at a core's first point, one more row over
    what the point before left elsewhere. -/
def accAt (c : Dev nD) : (n : ℕ) → n < cfg0.N → Vec F S40x128 .f32
  | 0, hn => soutA m c ⟨0, hn⟩ (Nat.zero_mod _)
  | n + 1, hn =>
    if h0 : (n + 1) % 8 = 0 then soutA m c ⟨n + 1, hn⟩ h0
    else if h1 : (n + 1) % 8 = 7 then soutC m c ⟨n + 1, hn⟩ h0 h1 (accAt c n (Nat.lt_of_succ_lt hn))
    else soutB m c ⟨n + 1, hn⟩ h0 h1 (accAt c n (Nat.lt_of_succ_lt hn))

theorem accAt_A (c : Dev nD) (t : Fin cfg0.N) (h0 : t.val % 8 = 0) : accAt m c t.val t.isLt = soutA m c t h0 := by
  obtain ⟨n, hn⟩ := t
  cases n with
  | zero => rfl
  | succ n => exact dif_pos h0

theorem accAt_B (c : Dev nD) (t : Fin cfg0.N) (h0 : ¬ t.val % 8 = 0) (h1 : ¬ t.val % 8 = 7) :
    accAt m c t.val t.isLt = soutB m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_C (c : Dev nD) (t : Fin cfg0.N) (h0 : ¬ t.val % 8 = 0) (h1 : t.val % 8 = 7) :
    accAt m c t.val t.isLt = soutC m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- A placeholder for the output's buffer where the window is idle: nothing consults it there. -/
def idleOut : Vec F S8x128 .f32 := VO0_3.read (Elt F) (VO0_3.writes (Elt F) VO0_3.junk [])

/-- The output's staging buffer after the body at point `t`: stored at a core's last row only. -/
def outAt (c : Dev nD) (t : Fin cfg0.N) : Vec F S8x128 .f32 :=
  if h1 : t.val % 8 = 7 then outC m c t (not0_of_7 h1) h1 (accAt m c (t.val - 1) (Nat.lt_of_le_of_lt (Nat.sub_le _ _) t.isLt))
  else idleOut

theorem outAt_C (c : Dev nD) (t : Fin cfg0.N) (h1 : t.val % 8 = 7) :
    outAt m c t = outC m c t (not0_of_7 h1) h1 (accAt m c (t.val - 1) (Nat.lt_of_le_of_lt (Nat.sub_le _ _) t.isLt)) := dif_pos h1

/-! ## The region's invariant -/

/-- Before position `n`: at the first point the class's invariant (the accumulator at anything); afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the closed forms say which case the point is in;
    the invariant hands the body the accumulator at what the point before left (at anything at the very first point)
    and takes it back at this point's contents, which the case's pieces cover; where the second branch is not taken
    the output's buffer is handed back as found, and where it is taken its one store covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 16 := lt_of_lt_of_eq t.isLt (show cfg0.N = 16 from N_0)
  by_cases h0 : t.val % 8 = 0
  · have hnc1 : ¬cond0_1 (grid0.coords t) := fun h => not7_of_0 h0 ((hcond0_1 t).mp h)
    rw [Dat.leavesExact_idle (dats m 0 c) 3 t (idleAt0_3 t hnc1) (noFlush0_3 t hnc1)]
    rw [accAt_A m c t h0]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((runA m c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runA m c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outAt_C m c t h1, accAt_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runC m c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scoverC m c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC m c t h0 h1 _)
    · have hnc1 : ¬cond0_1 (grid0.coords t) := fun h => h1 ((hcond0_1 t).mp h)
      rw [Dat.leavesExact_idle (dats m 0 c) 3 t (idleAt0_3 t hnc1) (noFlush0_3 t hnc1)]
      rw [accAt_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runB m c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has each array of the pipeline at what
    the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KIKit.lean ====
/-
  The frame kit of `KernelIdeal`: what the region finds and what surrounds it.

  @main is eleven stretches of host operations, the one kernel region, and four host operations after it. This
  module fixes the contents of every buffer when the region is entered (`V0`: the launch memory after the eleven
  stretches), shows that @main is those stretches, the region and the tail (`hmain`), that the tail touches only
  unscoped buffers, allocates nothing and writes no array of the pipeline, and that no host operation writes an
  argument array (`V_main_argK`, `W_main_argK`), from which the frame claim follows from a frame run (`frame_of`).
  It also names what the kernel body's three control cases are stated over: the two branch conditions as functions
  of the grid point, decided over the 16 points (the first holds at the points ≡ 0 mod 8, the second at those
  ≡ 7 mod 8); where the output window is idle and where it is written back; the staging and scratch memrefs.
  Everything is generic in the float instance.
-/
import proofs.«414909_j37056977830580_4_alg».proof.Proof.Gen.KernelIdeal.Launch
import proofs.«414909_j37056977830580_4_alg».proof.Proof.Gen.KernelIdeal.Skeleton
import proofs.«414909_j37056977830580_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The eleven stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10]

/-- Core `c`'s buffer contents when the region is entered: the launch memory after the host operations before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the stretches before the region, the region, and the four operations after it; so it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the buffer `b`, when `b` differs from every result buffer. -/
local macro "prefix_keeps" : tactic => `(tactic| (
  simp only [prefixOps, hostOps0, hostOps0_1, hostOps0_2, hostOps0_3, hostOps0_4, hostOps0_5, hostOps0_6, hostOps0_7, hostOps0_8, hostOps0_9, hostOps0_10, StableHlo.TRef.unary, StableHlo.TRef.binary, StableHlo.TRef.ternary, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

local macro "tail_keeps" : tactic => `(tactic| (
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by prefix_keeps))

/-- And the operations after the region leave it so. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_keeps)),
    Pipeline.withArrays_of_ne _ c (V0 m c) _ main_arg0 (by exact (by decide : ∀ w, Pipeline.arrRef spec0 w ≠ main_arg0))]
  exact V_main_arg0 m c

/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by prefix_keeps))

/-- And the operations after the region leave it so. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_keeps)),
    Pipeline.withArrays_of_ne _ c (V0 m c) _ main_arg1 (by exact (by decide : ∀ w, Pipeline.arrRef spec0 w ≠ main_arg1))]
  exact V_main_arg1 m c

/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by prefix_keeps))

/-- And the operations after the region leave it so. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_keeps)),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no window stages an argument array, so each ends as the operations after the region
    leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The first branch of the body (reset the accumulator): the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch of the body (reduce and store the output): the second grid coordinate is the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle, and the pipeline does not write it back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken the output window is live. -/
theorem liveAt0_3 : ∀ t : Fin cfg0.N, cond0_1 (grid0.coords t) → cfg0.idle 3 (grid0.coords t) = false := by decide +kernel

/-! ## The memrefs the body is called on -/

/-- One staging buffer of the output window, through which its contents are stated. -/
abbrev VO0_3 : View sig .tc .vmem S8x128 .f32 := (Memref.whole cc0_stg3_0 : Memref sig .tc .vmem S8x128 .f32).view
abbrev ms0_0 (t : Fin cfg0.N) : Memref sig .tc .vmem S1x1x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
/-- The accumulator: a whole scoped buffer of the kernel's own, carried between grid points. -/
abbrev scM0_0 : Memref sig .tc .vmem S40x128 .f32 := Memref.whole cc0_scratch0
abbrev VS0_0 : View sig .tc .vmem S40x128 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The kernel body at a point where the accumulator is reset (the first branch taken, the second not).

  On whole staging memrefs, the three inputs at their contents, the output's buffer at contents it hands back
  untouched, and the accumulator at anything, the body runs to its end: it loads the accumulator (the value is not
  used), overwrites it whole with zeros, loads the three input blocks, reads the zeros back and stores the first
  row's contribution over them. The pieces the accumulator ends with are the witness the symbolic run finds.
-/
import proofs.«414909_j37056977830580_4_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x1x5120 .f32) (harg2 : arg2.IsWhole) (arg3 : Memref sig .tc .vmem S1x1x5120 .f32) (harg3 : arg3.IsWhole) (arg4 : Memref sig .tc .vmem S1x1x5120 .f32) (harg4 : arg4.IsWhole) (arg5 : Memref sig .tc .vmem S8x128 .f32) (harg5 : arg5.IsWhole) (arg6 : Memref sig .tc .vmem S40x128 .f32) (harg6 : arg6.IsWhole) (hc0 : cond0_0 i) (hc1 : ¬cond0_1 i)
    (x0 x1 x2 : Vec F S1x1x5120 .f32) :
    Σ' (L3 : List (View.Piece (Elt F) S8x128 .f32)), { LS0 : List (View.Piece (Elt F) S40x128 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__station_loss_kernel i arg2 harg2 arg3 harg3 arg4 harg4 arg5 harg5 arg6 harg6) K } := by
  refine ⟨[], ?_, fun xi3 E K => ?run⟩
  case run =>
    simp only [cc0__station_loss_kernel_eq_skeleton]; unfold cc0__station_loss_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KIRunB.lean ====
/-
  The kernel body at a point where neither branch is taken: one more row is added to the accumulator.

  The accumulator holds what the point before left; the body loads the three input blocks and the accumulator and
  stores the accumulator plus this row's contribution. The output's buffer is handed back untouched.
-/
import proofs.«414909_j37056977830580_4_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x1x5120 .f32) (harg2 : arg2.IsWhole) (arg3 : Memref sig .tc .vmem S1x1x5120 .f32) (harg3 : arg3.IsWhole) (arg4 : Memref sig .tc .vmem S1x1x5120 .f32) (harg4 : arg4.IsWhole) (arg5 : Memref sig .tc .vmem S8x128 .f32) (harg5 : arg5.IsWhole) (arg6 : Memref sig .tc .vmem S40x128 .f32) (harg6 : arg6.IsWhole) (hc0 : ¬cond0_0 i) (hc1 : ¬cond0_1 i)
    (x0 x1 x2 : Vec F S1x1x5120 .f32) (xs0 : Vec F S40x128 .f32) :
    Σ' (L3 : List (View.Piece (Elt F) S8x128 .f32)), { LS0 : List (View.Piece (Elt F) S40x128 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__station_loss_kernel i arg2 harg2 arg3 harg3 arg4 harg4 arg5 harg5 arg6 harg6) K } := by
  refine ⟨[], ?_, fun xi3 E K => ?run⟩
  case run =>
    simp only [cc0__station_loss_kernel_eq_skeleton]; unfold cc0__station_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KIRunC.lean ====
/-
  The kernel body at a point where the second branch is taken (and the first not): the last row of a core's
  share is added, and the accumulator is reduced into the output block.

  The accumulator holds what the point before left; the body adds this row's contribution, reads the accumulator
  back, sums it, loads the output's buffer (the value is not used) and overwrites it whole with the block that has
  the sum at entry (0, 0) and zero elsewhere. The output's buffer may start at anything.
-/
import proofs.«414909_j37056977830580_4_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x1x5120 .f32) (harg2 : arg2.IsWhole) (arg3 : Memref sig .tc .vmem S1x1x5120 .f32) (harg3 : arg3.IsWhole) (arg4 : Memref sig .tc .vmem S1x1x5120 .f32) (harg4 : arg4.IsWhole) (arg5 : Memref sig .tc .vmem S8x128 .f32) (harg5 : arg5.IsWhole) (arg6 : Memref sig .tc .vmem S40x128 .f32) (harg6 : arg6.IsWhole) (hc0 : ¬cond0_0 i) (hc1 : cond0_1 i)
    (x0 x1 x2 : Vec F S1x1x5120 .f32) (xs0 : Vec F S40x128 .f32) :
    Σ' (L3 : List (View.Piece (Elt F) S8x128 .f32)), { LS0 : List (View.Piece (Elt F) S40x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__station_loss_kernel i arg2 harg2 arg3 harg3 arg4 harg4 arg5 harg5 arg6 harg6) K } := by
  refine ⟨?_, ?_, fun E K => ?run⟩
  case run =>
    simp only [cc0__station_loss_kernel_eq_skeleton]; unfold cc0__station_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KIFrame.lean ====
/-
  The frame of `KernelIdeal`: the program runs to its end, faults nowhere and leaves its three argument arrays unchanged.

  The kernel body has three control cases over the 16 grid points (two cores × 8 rows): at a core's first row it
  resets the accumulator and adds the row; at the rows in between it adds the row; at the last row it adds the row,
  sums the accumulator and stores the output block. What the accumulator holds after each point is defined by
  recursion on the point (`accAt`): the case's pieces read back, over what the point before left. The output's
  staging buffer is stored only at the last row of a core (`outAt`); elsewhere the window is idle and its buffer
  is handed back as found. The region's invariant (`PhiS`) carries the accumulator at `accAt` of the point before.
  From these the body's obligation holds at every point (`sound_body`: the inputs' buffers hold their blocks, the
  closed forms of the two conditions select the case, the case's run applies), the launch theorem for a carried
  scratch with host operations around the region gives the run (`run_main`), and the frame claim follows
  (`frame`). Generic in the float instance.
-/
import proofs.«414909_j37056977830580_4_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

theorem not7_of_0 {n : ℕ} (h0 : n % 8 = 0) : ¬ n % 8 = 7 := by omega

/-- The reset case's run at point `t`, on the point's memrefs and input blocks. -/
abbrev runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => not7_of_0 h0 ((hcond0_1 t).mp h)) (iblk m c 0 t) (iblk m c 1 t) (iblk m c 2 t)

/-- The middle case's run at point `t`, the accumulator at `xs`. -/
abbrev runB (c : Dev nD) (t : Fin cfg0.N) (h0 : ¬ t.val % 8 = 0) (h1 : ¬ t.val % 8 = 7) (xs : Vec F S40x128 .f32) :=
  kernelRun0_B (F := F) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk m c 0 t) (iblk m c 1 t) (iblk m c 2 t) xs

/-- The last-row case's run at point `t`, the accumulator at `xs`. -/
abbrev runC (c : Dev nD) (t : Fin cfg0.N) (h0 : ¬ t.val % 8 = 0) (h1 : t.val % 8 = 7) (xs : Vec F S40x128 .f32) :=
  kernelRun0_C (F := F) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t) xs

/-- Each case's pieces for the accumulator tile it, so they cover it. -/
theorem scoverA (c : Dev nD) (t : Fin cfg0.N) (h0 : t.val % 8 = 0) (y : S40x128.Idx) :
    ∃ pc ∈ (runA m c t h0).2.1, y ∈ pc.1.set :=
  View.cover_of_tiledL (runA m c t h0).2.1 S40x128.size (by sl_kernel_rfl) y
theorem scoverB (c : Dev nD) (t : Fin cfg0.N) (h0 : ¬ t.val % 8 = 0) (h1 : ¬ t.val % 8 = 7) (xs : Vec F S40x128 .f32) (y : S40x128.Idx) :
    ∃ pc ∈ (runB m c t h0 h1 xs).2.1, y ∈ pc.1.set :=
  View.cover_of_tiledL (runB m c t h0 h1 xs).2.1 S40x128.size (by sl_kernel_rfl) y
theorem scoverC (c : Dev nD) (t : Fin cfg0.N) (h0 : ¬ t.val % 8 = 0) (h1 : t.val % 8 = 7) (xs : Vec F S40x128 .f32) (y : S40x128.Idx) :
    ∃ pc ∈ (runC m c t h0 h1 xs).2.1, y ∈ pc.1.set :=
  View.cover_of_tiledL (runC m c t h0 h1 xs).2.1 S40x128.size (by sl_kernel_rfl) y
/-- The last-row case's one store into the output's buffer covers it. -/
theorem coverC (c : Dev nD) (t : Fin cfg0.N) (h0 : ¬ t.val % 8 = 0) (h1 : t.val % 8 = 7) (xs : Vec F S40x128 .f32) (y : S8x128.Idx) :
    ∃ pc ∈ (runC m c t h0 h1 xs).1, y ∈ pc.1.set :=
  View.cover_of_tiledL (runC m c t h0 h1 xs).1 S8x128.size (by sl_kernel_rfl) y

/-- What each case leaves in the accumulator: its pieces read back. -/
def soutA (c : Dev nD) (t : Fin cfg0.N) (h0 : t.val % 8 = 0) : Vec F S40x128 .f32 :=
  VS0_0.read (Elt F) (VS0_0.writes (Elt F) VS0_0.junk (runA m c t h0).2.1)
def soutB (c : Dev nD) (t : Fin cfg0.N) (h0 : ¬ t.val % 8 = 0) (h1 : ¬ t.val % 8 = 7) (xs : Vec F S40x128 .f32) : Vec F S40x128 .f32 :=
  VS0_0.read (Elt F) (VS0_0.writes (Elt F) VS0_0.junk (runB m c t h0 h1 xs).2.1)
def soutC (c : Dev nD) (t : Fin cfg0.N) (h0 : ¬ t.val % 8 = 0) (h1 : t.val % 8 = 7) (xs : Vec F S40x128 .f32) : Vec F S40x128 .f32 :=
  VS0_0.read (Elt F) (VS0_0.writes (Elt F) VS0_0.junk (runC m c t h0 h1 xs).2.1)
/-- What the last-row case leaves in the output's staging buffer. -/
def outC (c : Dev nD) (t : Fin cfg0.N) (h0 : ¬ t.val % 8 = 0) (h1 : t.val % 8 = 7) (xs : Vec F S40x128 .f32) : Vec F S8x128 .f32 :=
  VO0_3.read (Elt F) (VO0_3.writes (Elt F) VO0_3.junk (runC m c t h0 h1 xs).1)

theorem not0_of_7 {n : ℕ} (h1 : n % 8 = 7) : ¬ n % 8 = 0 := by omega

/-! ## The accumulator and the output's buffer after each point -/

/-- The accumulator after the body at position `n`: reset and first row at a core's first point, one more row over
    what the point before left elsewhere. -/
def accAt (c : Dev nD) : (n : ℕ) → n < cfg0.N → Vec F S40x128 .f32
  | 0, hn => soutA m c ⟨0, hn⟩ (Nat.zero_mod _)
  | n + 1, hn =>
    if h0 : (n + 1) % 8 = 0 then soutA m c ⟨n + 1, hn⟩ h0
    else if h1 : (n + 1) % 8 = 7 then soutC m c ⟨n + 1, hn⟩ h0 h1 (accAt c n (Nat.lt_of_succ_lt hn))
    else soutB m c ⟨n + 1, hn⟩ h0 h1 (accAt c n (Nat.lt_of_succ_lt hn))

theorem accAt_A (c : Dev nD) (t : Fin cfg0.N) (h0 : t.val % 8 = 0) : accAt m c t.val t.isLt = soutA m c t h0 := by
  obtain ⟨n, hn⟩ := t
  cases n with
  | zero => rfl
  | succ n => exact dif_pos h0

theorem accAt_B (c : Dev nD) (t : Fin cfg0.N) (h0 : ¬ t.val % 8 = 0) (h1 : ¬ t.val % 8 = 7) :
    accAt m c t.val t.isLt = soutB m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_C (c : Dev nD) (t : Fin cfg0.N) (h0 : ¬ t.val % 8 = 0) (h1 : t.val % 8 = 7) :
    accAt m c t.val t.isLt = soutC m c t h0 h1 (accAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- A placeholder for the output's buffer where the window is idle: nothing consults it there. -/
def idleOut : Vec F S8x128 .f32 := VO0_3.read (Elt F) (VO0_3.writes (Elt F) VO0_3.junk [])

/-- The output's staging buffer after the body at point `t`: stored at a core's last row only. -/
def outAt (c : Dev nD) (t : Fin cfg0.N) : Vec F S8x128 .f32 :=
  if h1 : t.val % 8 = 7 then outC m c t (not0_of_7 h1) h1 (accAt m c (t.val - 1) (Nat.lt_of_le_of_lt (Nat.sub_le _ _) t.isLt))
  else idleOut

theorem outAt_C (c : Dev nD) (t : Fin cfg0.N) (h1 : t.val % 8 = 7) :
    outAt m c t = outC m c t (not0_of_7 h1) h1 (accAt m c (t.val - 1) (Nat.lt_of_le_of_lt (Nat.sub_le _ _) t.isLt)) := dif_pos h1

/-! ## The region's invariant -/

/-- Before position `n`: at the first point the class's invariant (the accumulator at anything); afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the closed forms say which case the point is in;
    the invariant hands the body the accumulator at what the point before left (at anything at the very first point)
    and takes it back at this point's contents, which the case's pieces cover; where the second branch is not taken
    the output's buffer is handed back as found, and where it is taken its one store covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 16 := lt_of_lt_of_eq t.isLt (show cfg0.N = 16 from N_0)
  by_cases h0 : t.val % 8 = 0
  · have hnc1 : ¬cond0_1 (grid0.coords t) := fun h => not7_of_0 h0 ((hcond0_1 t).mp h)
    rw [Dat.leavesExact_idle (dats m 0 c) 3 t (idleAt0_3 t hnc1) (noFlush0_3 t hnc1)]
    rw [accAt_A m c t h0]
    unfold soutA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((runA m c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runA m c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outAt_C m c t h1, accAt_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runC m c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scoverC m c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC m c t h0 h1 _)
    · have hnc1 : ¬cond0_1 (grid0.coords t) := fun h => h1 ((hcond0_1 t).mp h)
      rw [Dat.leavesExact_idle (dats m 0 c) 3 t (idleAt0_3 t hnc1) (noFlush0_3 t hnc1)]
      rw [accAt_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((runB m c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has each array of the pipeline at what
    the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.KIPieces.lean ====
/-
  What each control case leaves in the accumulator and in the output's buffer, as the body's stored values.

  Every store of the body writes a whole buffer through the rectangle at the origin, so the last store's value is
  what the buffer ends holding, and every load through that rectangle reads the whole contents: an input's block,
  the carried accumulator, or (after a store in the same case) the value just stored. At a core's first row the
  accumulator is zeroed and the zeros are what the row's contribution is added to; at the last row the output's
  block is computed from the accumulator as just updated.
-/
import proofs.«414909_j37056977830580_4_alg».proof.Proof.KIFrame
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The whole-buffer rectangles start at the origin (rank two: accumulator and output block; rank three: input blocks). -/
private theorem hz : (![0, 0] : Fin 2 → Nat) = fun _ => 0 := funext fun a => by fin_cases a <;> rfl
private theorem hz3 : (![0, 0, 0] : Fin 3 → Nat) = fun _ => 0 := funext fun a => by fin_cases a <;> rfl

/-- At a core's first row the accumulator ends at the first row's contribution over zeros. -/
theorem soutA_eq (c : Dev nD) (t : Fin cfg0.N) (h0 : t.val % 8 = 0) :
    Fr.soutA m c t h0 = k0_pay2 (Fr.iblk m c 0 t) (Fr.iblk m c 1 t) (Fr.iblk m c 2 t) (k0_pay1 (F := F)) := by
  unfold Fr.soutA
  rw [View.read_writes_eq_canon _ _ _ (Fr.scoverA m c t h0)]
  unfold Fr.runA Fr.kernelRun0_A
  dsimp only
  sl_unfold_words
  rw [View.canon_cons_unit_zero (S := S40x128) hz, View.readCov_unit_zero (S := S40x128) _ hz]
  simp only [View.readAt_eq_ld, (Fr.hs0_0 t).read_unread, (Fr.hs0_1 t).read_unread, (Fr.hs0_2 t).read_unread,
    View.ld_unit_zero (S := S1x1x5120) hz3]

/-- At a row in between it ends at the row's contribution over what it held. -/
theorem soutB_eq (c : Dev nD) (t : Fin cfg0.N) (h0 : ¬ t.val % 8 = 0) (h1 : ¬ t.val % 8 = 7) (xs : Vec F S40x128 .f32) :
    Fr.soutB m c t h0 h1 xs = k0_pay2 (Fr.iblk m c 0 t) (Fr.iblk m c 1 t) (Fr.iblk m c 2 t) xs := by
  unfold Fr.soutB
  rw [View.read_writes_eq_canon _ _ _ (Fr.scoverB m c t h0 h1 xs)]
  unfold Fr.runB Fr.kernelRun0_B
  dsimp only
  sl_unfold_words
  rw [View.canon_unit_zero hz]
  simp only [View.readAt_eq_ld, (Fr.hs0_0 t).read_unread, (Fr.hs0_1 t).read_unread, (Fr.hs0_2 t).read_unread,
    (Memref.isWhole_whole cc0_scratch0).read_unread, View.ld_unit_zero (S := S40x128) hz, View.ld_unit_zero (S := S1x1x5120) hz3]

/-- At a core's last row likewise, -/
theorem soutC_eq (c : Dev nD) (t : Fin cfg0.N) (h0 : ¬ t.val % 8 = 0) (h1 : t.val % 8 = 7) (xs : Vec F S40x128 .f32) :
    Fr.soutC m c t h0 h1 xs = k0_pay2 (Fr.iblk m c 0 t) (Fr.iblk m c 1 t) (Fr.iblk m c 2 t) xs := by
  unfold Fr.soutC
  rw [View.read_writes_eq_canon _ _ _ (Fr.scoverC m c t h0 h1 xs)]
  unfold Fr.runC Fr.kernelRun0_C
  dsimp only
  sl_unfold_words
  rw [View.canon_unit_zero hz]
  simp only [View.readAt_eq_ld, (Fr.hs0_0 t).read_unread, (Fr.hs0_1 t).read_unread, (Fr.hs0_2 t).read_unread,
    (Memref.isWhole_whole cc0_scratch0).read_unread, View.ld_unit_zero (S := S40x128) hz, View.ld_unit_zero (S := S1x1x5120) hz3]

/-- and the output's buffer ends at the reduction of that accumulator. -/
theorem outC_eq (c : Dev nD) (t : Fin cfg0.N) (h0 : ¬ t.val % 8 = 0) (h1 : t.val % 8 = 7) (xs : Vec F S40x128 .f32) :
    Fr.outC m c t h0 h1 xs = k0_pay3 (k0_pay2 (Fr.iblk m c 0 t) (Fr.iblk m c 1 t) (Fr.iblk m c 2 t) xs) := by
  unfold Fr.outC
  rw [View.read_writes_eq_canon _ _ _ (Fr.coverC m c t h0 h1 xs)]
  unfold Fr.runC Fr.kernelRun0_C
  dsimp only
  sl_unfold_words
  rw [View.canon_unit_zero hz]
  simp only [View.readCov_unit_zero (S := S40x128) _ hz, View.readAt_eq_ld, (Fr.hs0_0 t).read_unread, (Fr.hs0_1 t).read_unread,
    (Fr.hs0_2 t).read_unread, (Memref.isWhole_whole cc0_scratch0).read_unread, View.ld_unit_zero (S := S40x128) hz,
    View.ld_unit_zero (S := S1x1x5120) hz3]

end Cert.KernelIdeal.Val

end
-- ==== Proof.KIDefs.lean ====
/-
  The quantities the kernel's value is stated in.

  When the region is entered, three host-computed arrays of shape [16, 1, 5120] hold, row by row and padded from
  5000 to 5120 lanes, the window means, the runoffs and a mask that is 1 on real stations and 0 on padding. The
  window mean of station `(r, s)` is the sum of its valid neighbours' values over the count of valid neighbours,
  the count guarded from below by 1. One row `r` contributes to lane `128 g + l` of the accumulator the squared
  difference of mean and runoff times the mask.
-/
import proofs.«414909_j37056977830580_4_alg».proof.Proof.KIKit
import Idealize.ShloMosaic.Lib.ValueIdx
import Idealize.ShloMosaic.PureOps.Ideal

noncomputable section

namespace Cert.KernelIdeal.Val

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The padded window means, runoffs and mask, as the region finds them. -/
def arrA : S16x1x5120.Idx → EReal := Fr.V m c main_v71
def arrR : S16x1x5120.Idx → EReal := Fr.V m c main_v72
def arrM : S16x1x5120.Idx → EReal := Fr.V m c main_v73
/-- The sums of the valid neighbours' values and the counts of valid neighbours, per station. -/
def numK : S16x5000.Idx → EReal := Fr.V m c main_v65
def cntK : S16x5000.Idx → EReal := Fr.V m c main_v61
/-- The runoffs, as launched. -/
def roffK : S16x5000.Idx → EReal := m ((c.tc : Thread nD τ).loc main_arg2)

/-- The kernel's window mean: the count is guarded from below by 1. -/
def avgK (r : Fin 16) (s : Fin 5000) : EReal :=
  Ideal.div (numK m c (ix2 r s)) (max (cntK m c (ix2 r s)) 1)

/-- Lane `l` of lane group `g`. -/
def lane (g : Fin 40) (l : Fin 128) : Fin 5120 := ⟨128 * g.val + l.val, by omega⟩

/-- Row `r`'s contribution to lane `(g, l)` of the accumulator. -/
def term (r : Fin 16) (g : Fin 40) (l : Fin 128) : EReal :=
  ((arrA m c (ix3 r (0 : Fin 1) (lane g l)) - arrR m c (ix3 r (0 : Fin 1) (lane g l)))
      * (arrA m c (ix3 r (0 : Fin 1) (lane g l)) - arrR m c (ix3 r (0 : Fin 1) (lane g l))))
    * arrM m c (ix3 r (0 : Fin 1) (lane g l))

/-- The same with the row given as a number (zero past the last row). -/
def termN (n : ℕ) (g : Fin 40) (l : Fin 128) : EReal :=
  if h : n < 16 then term m c ⟨n, h⟩ g l else 0

/-- What one core's accumulator sums to after its eight rows: core `k` has rows `8 k … 8 k + 7`. -/
def coreTotal (k : ℕ) : EReal :=
  ∑ g : Fin 40, ∑ l : Fin 128, ∑ b ∈ Finset.range 8, termN m c (8 * k + b) g l

/-- The output array after the run: core `k`'s total at entry `(8 k, 0)`, zero elsewhere. -/
def G : S16x128.Idx → EReal := fun i =>
  if (i 0).val % 8 = 0 ∧ (i 1).val = 0 then coreTotal m c ((i 0).val / 8) else 0

end Cert.KernelIdeal.Val

end
-- ==== Proof.KIBlocks.lean ====
/-
  The input windows' blocks are rows of the padded arrays: each of the three input windows cuts its [16, 1, 5120]
  array into blocks [1, 1, 5120] along the grid (2, 8) by the index map (k, b) ↦ (8 k + b, 0, 0), so the block at
  grid point `t` is row `t`, and a block's coordinate on an axis is index × size + the coordinate inside the block.
-/
import proofs.«414909_j37056977830580_4_alg».proof.Proof.KIDefs
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The three input windows' index maps over the grid: point `t` stages block `(t, 0, 0)`. -/
theorem iblk_rowIdx : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- Grid point `t` (core `t / 8`, row `t % 8` of the core) stages row `t` of each padded array. -/
theorem iblk0_apply (t : Fin cfg0.N) (j : Fin 5120) :
    (Fr.iblk m c 0 t : S1x1x5120.Idx → EReal) (ix3 (0 : Fin 1) (0 : Fin 1) j)
      = arrA m c (ix3 (⟨t.val, lt_of_lt_of_eq t.isLt (show cfg0.N = 16 from N_0)⟩ : Fin 16) (0 : Fin 1) j) := by
  obtain ⟨e0, e1, e2⟩ := (iblk_rowIdx t).1
  unfold Fr.iblk arrA
  rw [View.read_apply]
  show Fr.V m c main_v71 (((cfg0.win 0).blk t).view.emb (ix3 (0 : Fin 1) (0 : Fin 1) j)) = Fr.V m c main_v71 _
  congr 1
  funext a
  apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 5120 + 1 * j.val = j.val; omega

theorem iblk1_apply (t : Fin cfg0.N) (j : Fin 5120) :
    (Fr.iblk m c 1 t : S1x1x5120.Idx → EReal) (ix3 (0 : Fin 1) (0 : Fin 1) j)
      = arrR m c (ix3 (⟨t.val, lt_of_lt_of_eq t.isLt (show cfg0.N = 16 from N_0)⟩ : Fin 16) (0 : Fin 1) j) := by
  obtain ⟨e0, e1, e2⟩ := (iblk_rowIdx t).2.1
  unfold Fr.iblk arrR
  rw [View.read_apply]
  show Fr.V m c main_v72 (((cfg0.win 1).blk t).view.emb (ix3 (0 : Fin 1) (0 : Fin 1) j)) = Fr.V m c main_v72 _
  congr 1
  funext a
  apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 5120 + 1 * j.val = j.val; omega

theorem iblk2_apply (t : Fin cfg0.N) (j : Fin 5120) :
    (Fr.iblk m c 2 t : S1x1x5120.Idx → EReal) (ix3 (0 : Fin 1) (0 : Fin 1) j)
      = arrM m c (ix3 (⟨t.val, lt_of_lt_of_eq t.isLt (show cfg0.N = 16 from N_0)⟩ : Fin 16) (0 : Fin 1) j) := by
  obtain ⟨e0, e1, e2⟩ := (iblk_rowIdx t).2.2
  unfold Fr.iblk arrM
  rw [View.read_apply]
  show Fr.V m c main_v73 (((cfg0.win 2).blk t).view.emb (ix3 (0 : Fin 1) (0 : Fin 1) j)) = Fr.V m c main_v73 _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 5120 + 1 * j.val = j.val; omega

end Cert.KernelIdeal.Val

end
-- ==== Proof.Payloads.lean ====
/-
  The kernel body's three stored values read at an index, at the ideal instance: the reset value is zero; one row's
  contribution is the accumulator plus the masked squared difference; the output block is the accumulator's total at
  entry (0, 0) and zero elsewhere.
-/
import proofs.«414909_j37056977830580_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open scoped BigOperators

/-- A [1, 1, 5120] block viewed as a flat row of 5120 reads, at `k`, the block at `(0, 0, k)`. -/
private theorem flat_apply {α : Type} (x : S1x1x5120.Idx → α) (k : Fin 5120) :
    shapeCast S5120 x shapeCasts_S1x1x5120_S5120 (ix1 k) = x (ix3 (0 : Fin 1) (0 : Fin 1) k) :=
  shapeCast_apply x _ _ _ (by
    rw [Shape.rowMajor_val_three, Shape.rowMajor_val_one]
    show (0 * 1 + 0) * 5120 + k.val = k.val
    omega)

/-- A flat row of 5120 viewed as [40, 128] reads, at `(g, l)`, the row at `128 g + l`. -/
private theorem fold_apply {α : Type} (x : S5120.Idx → α) (g : Fin 40) (l : Fin 128) :
    shapeCast S40x128 x shapeCasts_S5120_S40x128 (ix2 g l) = x (ix1 (⟨128 * g.val + l.val, by omega⟩ : Fin 5120)) :=
  shapeCast_apply x _ _ _ (by
    rw [Shape.rowMajor_val_two, Shape.rowMajor_val_one]
    show 128 * g.val + l.val = g.val * 128 + l.val
    omega)

/-- The reset value of the accumulator is zero everywhere. -/
theorem pay1_apply (g : Fin 40) (l : Fin 128) : k0_pay1 (F := Ideal) (ix2 g l) = (0 : EReal) := by
  unfold k0_pay1
  show shapeCast S40x128 (broadcast S40x128 (Scalar.ofBits (F := Ideal) .f32 0x00000000#32)) shapeCasts_S40x128_S40x128 (ix2 g l) = 0
  rw [shapeCast_self]
  exact Ideal.ofBits_zero_f32

/-- One row's contribution: at lane `128 g + l` the accumulator gains the squared difference of the first two
    blocks times the third (the mask). -/
theorem pay2_apply (v3 v5 v7 : Vec Ideal S1x1x5120 .f32) (v12 : Vec Ideal S40x128 .f32) (g : Fin 40) (l : Fin 128) :
    k0_pay2 (F := Ideal) v3 v5 v7 v12 (ix2 g l)
      = (v12 (ix2 g l) : EReal)
        + ((v3 (ix3 (0 : Fin 1) (0 : Fin 1) (⟨128 * g.val + l.val, by omega⟩ : Fin 5120))
              - v5 (ix3 (0 : Fin 1) (0 : Fin 1) (⟨128 * g.val + l.val, by omega⟩ : Fin 5120)))
            * (v3 (ix3 (0 : Fin 1) (0 : Fin 1) (⟨128 * g.val + l.val, by omega⟩ : Fin 5120))
              - v5 (ix3 (0 : Fin 1) (0 : Fin 1) (⟨128 * g.val + l.val, by omega⟩ : Fin 5120))))
          * v7 (ix3 (0 : Fin 1) (0 : Fin 1) (⟨128 * g.val + l.val, by omega⟩ : Fin 5120)) := by
  unfold k0_pay2
  refine (congrFun (shapeCast_self _ shapeCasts_S40x128_S40x128) (ix2 g l)).trans ?_
  refine congrArg (fun t => (v12 (ix2 g l) : EReal) + t) ?_
  refine (fold_apply _ g l).trans ?_
  show (shapeCast S5120 v3 shapeCasts_S1x1x5120_S5120 (ix1 _) - shapeCast S5120 v5 shapeCasts_S1x1x5120_S5120 (ix1 _))
        * (shapeCast S5120 v3 shapeCasts_S1x1x5120_S5120 (ix1 _) - shapeCast S5120 v5 shapeCasts_S1x1x5120_S5120 (ix1 _))
        * shapeCast S5120 v7 shapeCasts_S1x1x5120_S5120 (ix1 _) = _
  rw [flat_apply, flat_apply, flat_apply]

/-- The sum along the lanes of a [40, 128] block, read at row `g`. -/
private theorem rowSum_apply (v : FVec Ideal S40x128 .f32) (g : Fin 40) :
    multiReduction (F := Ideal) .add [1] S40 v 0x00000000#32 reduces_S40x128_S40 (.inl rfl) rfl (ix1 g)
      = ∑ l : Fin 128, (v (ix2 g l) : EReal) := by
  refine (Ideal.multiReduction_add_single v _ reduces_S40x128_S40 _ _ (ix1 g)).trans ?_
  refine Finset.sum_congr rfl fun l _ => congrArg v ?_
  funext c
  match c with
  | ⟨0, _⟩ => exact Fin.ext rfl
  | ⟨1, _⟩ => exact Fin.ext rfl

/-- The sum along the one row of a [1, 40] block. -/
private theorem colSum_apply (x : FVec Ideal S1x40 .f32) (u : Fin 1) :
    multiReduction (F := Ideal) .add [1] S1 x 0x00000000#32 reduces_S1x40_S1 (.inl rfl) rfl (ix1 u)
      = ∑ g : Fin 40, (x (ix2 u g) : EReal) := by
  refine (Ideal.multiReduction_add_single x _ reduces_S1x40_S1 _ _ (ix1 u)).trans ?_
  refine Finset.sum_congr rfl fun g _ => congrArg x ?_
  funext c
  match c with
  | ⟨0, _⟩ => exact Fin.ext rfl
  | ⟨1, _⟩ => exact Fin.ext rfl

/-- The block summed over its lanes, then over its rows, read at the one entry of the [1, 1] result: the sum of the
    whole block. -/
private theorem total_apply (v : FVec Ideal S40x128 .f32) :
    extractAt ![0, 0]
        (shapeCast S1x1
          (multiReduction (F := Ideal) .add [1] S1
            (shapeCast S1x40 (multiReduction (F := Ideal) .add [1] S40 v 0x00000000#32 reduces_S40x128_S40 (.inl rfl) rfl)
              shapeCasts_S40_S1x40)
            0x00000000#32 reduces_S1x40_S1 (.inl rfl) rfl)
          shapeCasts_S1_S1x1)
        inpos_S1x1_p0_0
      = ∑ g : Fin 40, ∑ l : Fin 128, (v (ix2 g l) : EReal) := by
  have h00 : (fun a : Fin S1x1.rank => (⟨(![0, 0] : Fin 2 → Nat) a, inpos_S1x1_p0_0 a⟩ : Fin (S1x1.size a)))
      = ix2 (0 : Fin 1) (0 : Fin 1) := by
    funext c
    match c with
    | ⟨0, _⟩ => exact Fin.ext rfl
    | ⟨1, _⟩ => exact Fin.ext rfl
  unfold extractAt
  rw [h00]
  refine (shapeCast_a_1a_apply _ shapeCasts_S1_S1x1 (0 : Fin 1) (0 : Fin 1)).trans ?_
  refine (colSum_apply _ (0 : Fin 1)).trans ?_
  refine Finset.sum_congr rfl fun g _ => ?_
  refine (shapeCast_a_1a_apply _ shapeCasts_S40_S1x40 (0 : Fin 1) g).trans ?_
  exact rowSum_apply v g

/-- The word "`n` equals zero" of a natural below 2 ^ 32. -/
private theorem cmpi_eq_zero (n : Nat) (hn : n < 2 ^ 32) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro hh
      have := congrArg BitVec.toNat hh
      rw [BitVec.toNat_ofNat, Nat.mod_eq_of_lt hn] at this
      exact h this
    show BitVec.ofBool (BitVec.ofNat 32 n == 0#32) = 0#1
    rw [hne]; rfl

/-- The selection on "row is 0 and column is 0" over an [8, 128] block, read at `(r, q)`. -/
private theorem corner_apply {α : Type} (A B : α) (r : Fin 8) (q : Fin 128) :
    select (andi (cmpi .eq (iota .tc S8x128 32 [0] iota_S8x128_d0_w32) (broadcast S8x128 0#32))
                 (cmpi .eq (iota .tc S8x128 32 [1] iota_S8x128_d1_w32) (broadcast S8x128 0#32)))
        (broadcast S8x128 A) (broadcast S8x128 B) (ix2 r q)
      = if r.val = 0 ∧ q.val = 0 then A else B := by
  show Scalar.select (IntOp.andi (IntOp.cmpi .eq (iota .tc S8x128 32 [0] iota_S8x128_d0_w32 (ix2 r q)) 0#32)
                                 (IntOp.cmpi .eq (iota .tc S8x128 32 [1] iota_S8x128_d1_w32 (ix2 r q)) 0#32)) A B = _
  rw [iota_single_apply, iota_single_apply]
  show Scalar.select (IntOp.andi (IntOp.cmpi .eq (BitVec.ofNat 32 r.val) 0#32)
                                 (IntOp.cmpi .eq (BitVec.ofNat 32 q.val) 0#32)) A B = _
  rw [cmpi_eq_zero r.val (by omega), cmpi_eq_zero q.val (by omega)]
  unfold Scalar.select IntOp.andi
  by_cases hr : r.val = 0
  · by_cases hq : q.val = 0
    · rw [if_pos hr, if_pos hq, if_pos (⟨hr, hq⟩ : r.val = 0 ∧ q.val = 0)]; rfl
    · rw [if_pos hr, if_neg hq, if_neg (fun h => hq h.2 : ¬(r.val = 0 ∧ q.val = 0))]; rfl
  · by_cases hq : q.val = 0
    · rw [if_neg hr, if_pos hq, if_neg (fun h => hr h.1 : ¬(r.val = 0 ∧ q.val = 0))]; rfl
    · rw [if_neg hr, if_neg hq, if_neg (fun h => hr h.1 : ¬(r.val = 0 ∧ q.val = 0))]; rfl

/-- The output block: the sum of the whole accumulator at entry (0, 0), zero elsewhere. -/
theorem pay3_apply (v21 : Vec Ideal S40x128 .f32) (r : Fin 8) (q : Fin 128) :
    k0_pay3 (F := Ideal) v21 (ix2 r q)
      = if r.val = 0 ∧ q.val = 0 then ∑ g : Fin 40, ∑ l : Fin 128, (v21 (ix2 g l) : EReal) else (0 : EReal) := by
  unfold k0_pay3
  refine (corner_apply _ _ r q).trans ?_
  by_cases h : r.val = 0 ∧ q.val = 0
  · rw [if_pos h, if_pos h]; exact total_apply v21
  · rw [if_neg h, if_neg h]; exact Ideal.ofBits_zero_f32

end Cert.KernelIdeal.Val

end
-- ==== Proof.KIAcc.lean ====
/-
  The accumulator after each grid point is the sum of the rows added so far, and at a core's last row the output's
  buffer holds the core's total at entry (0, 0).
-/
import proofs.«414909_j37056977830580_4_alg».proof.Proof.KIPieces
import proofs.«414909_j37056977830580_4_alg».proof.Proof.KIBlocks
import proofs.«414909_j37056977830580_4_alg».proof.Proof.Payloads

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- One row added over contents `xs`: lane `(g, l)` gains the row's contribution. -/
private theorem step_apply (t : Fin cfg0.N) (xs : Vec Ideal S40x128 .f32) (g : Fin 40) (l : Fin 128) :
    k0_pay2 (F := Ideal) (Fr.iblk m c 0 t) (Fr.iblk m c 1 t) (Fr.iblk m c 2 t) xs (ix2 g l)
      = (xs (ix2 g l) : EReal) + termN m c t.val g l := by
  have hN : t.val < 16 := lt_of_lt_of_eq t.isLt (show cfg0.N = 16 from N_0)
  refine (pay2_apply (Fr.iblk m c 0 t) (Fr.iblk m c 1 t) (Fr.iblk m c 2 t) xs g l).trans ?_
  rw [iblk0_apply m c t, iblk1_apply m c t, iblk2_apply m c t]
  unfold termN
  rw [dif_pos hN]
  rfl

/-- The accumulator after position `n`, by induction on `n`: a core's first row starts the sum over, every other row
    adds its term to the sum the row before left. -/
private theorem accAt_sum (g : Fin 40) (l : Fin 128) : ∀ (n : ℕ) (hn : n < cfg0.N),
    (Fr.accAt m c n hn : S40x128.Idx → EReal) (ix2 g l)
      = ∑ b ∈ Finset.range (n % 8 + 1), termN m c (8 * (n / 8) + b) g l := by
  intro n
  induction n using Nat.strong_induction_on with
  | _ n ih =>
    intro hn
    by_cases h0 : n % 8 = 0
    · refine (congrFun (Fr.accAt_A m c ⟨n, hn⟩ h0) (ix2 g l)).trans ?_
      refine (congrFun (soutA_eq (F := Ideal) m c ⟨n, hn⟩ h0) (ix2 g l)).trans ?_
      refine (step_apply m c ⟨n, hn⟩ (k0_pay1 (F := Ideal)) g l).trans ?_
      rw [pay1_apply g l, zero_add, h0, Finset.sum_range_one]
      exact congrArg (fun k => termN m c k g l) (by show n = 8 * (n / 8) + 0; omega)
    · have hpos : n - 1 < n := by omega
      have hlt : n - 1 < cfg0.N := Nat.lt_of_le_of_lt (Nat.sub_le _ _) hn
      have hd : (n - 1) / 8 = n / 8 := by omega
      have hm : (n - 1) % 8 + 1 = n % 8 := by omega
      have hprev := ih (n - 1) hpos hlt
      rw [hd, hm] at hprev
      have hlast : termN m c n g l = termN m c (8 * (n / 8) + n % 8) g l :=
        congrArg (fun k => termN m c k g l) (by omega)
      by_cases h1 : n % 8 = 7
      · refine (congrFun (Fr.accAt_C m c ⟨n, hn⟩ h0 h1) (ix2 g l)).trans ?_
        refine (congrFun (soutC_eq (F := Ideal) m c ⟨n, hn⟩ h0 h1 (Fr.accAt m c (n - 1) hlt)) (ix2 g l)).trans ?_
        refine (step_apply m c ⟨n, hn⟩ (Fr.accAt m c (n - 1) hlt) g l).trans ?_
        rw [Finset.sum_range_succ, ← hlast]
        exact congrArg (fun x => x + termN m c n g l) hprev
      · refine (congrFun (Fr.accAt_B m c ⟨n, hn⟩ h0 h1) (ix2 g l)).trans ?_
        refine (congrFun (soutB_eq (F := Ideal) m c ⟨n, hn⟩ h0 h1 (Fr.accAt m c (n - 1) hlt)) (ix2 g l)).trans ?_
        refine (step_apply m c ⟨n, hn⟩ (Fr.accAt m c (n - 1) hlt) g l).trans ?_
        rw [Finset.sum_range_succ, ← hlast]
        exact congrArg (fun x => x + termN m c n g l) hprev

/-- After point `t` (core `t / 8`, row `t % 8`) lane `(g, l)` of the accumulator holds the contributions of the
    core's rows `0 … t % 8`. -/
theorem accAt_apply (t : Fin cfg0.N) (g : Fin 40) (l : Fin 128) :
    (Fr.accAt m c t.val t.isLt : S40x128.Idx → EReal) (ix2 g l)
      = ∑ b ∈ Finset.range (t.val % 8 + 1), termN m c (8 * (t.val / 8) + b) g l := by
  exact accAt_sum m c g l t.val t.isLt

/-- At a core's last row the output's buffer holds the core's total at entry (0, 0) and zero elsewhere. -/
theorem outAt_apply (t : Fin cfg0.N) (h1 : t.val % 8 = 7) (r : Fin 8) (q : Fin 128) :
    (Fr.outAt m c t : S8x128.Idx → EReal) (ix2 r q)
      = if r.val = 0 ∧ q.val = 0 then coreTotal m c (t.val / 8) else 0 := by
  have h0 : ¬ t.val % 8 = 0 := Fr.not0_of_7 h1
  have hlt : t.val - 1 < cfg0.N := Nat.lt_of_le_of_lt (Nat.sub_le _ _) t.isLt
  have eacc : Fr.accAt m c t.val t.isLt
      = k0_pay2 (F := Ideal) (Fr.iblk m c 0 t) (Fr.iblk m c 1 t) (Fr.iblk m c 2 t) (Fr.accAt m c (t.val - 1) hlt) :=
    (Fr.accAt_C m c t h0 h1).trans (soutC_eq (F := Ideal) m c t h0 h1 (Fr.accAt m c (t.val - 1) hlt))
  have key : ∀ (g : Fin 40) (l : Fin 128),
      (k0_pay2 (F := Ideal) (Fr.iblk m c 0 t) (Fr.iblk m c 1 t) (Fr.iblk m c 2 t) (Fr.accAt m c (t.val - 1) hlt) (ix2 g l) : EReal)
        = ∑ b ∈ Finset.range 8, termN m c (8 * (t.val / 8) + b) g l := by
    intro g l
    refine (congrFun eacc (ix2 g l)).symm.trans ?_
    refine (accAt_sum m c g l t.val t.isLt).trans ?_
    rw [h1]
  refine (congrFun (Fr.outAt_C m c t h1) (ix2 r q)).trans ?_
  refine (congrFun (outC_eq (F := Ideal) m c t h0 h1 (Fr.accAt m c (t.val - 1) hlt)) (ix2 r q)).trans ?_
  refine (pay3_apply (k0_pay2 (F := Ideal) (Fr.iblk m c 0 t) (Fr.iblk m c 1 t) (Fr.iblk m c 2 t) (Fr.accAt m c (t.val - 1) hlt)) r q).trans ?_
  by_cases h : r.val = 0 ∧ q.val = 0
  · rw [if_pos h, if_pos h]
    unfold coreTotal
    exact Finset.sum_congr rfl fun g _ => Finset.sum_congr rfl fun l _ => key g l
  · rw [if_neg h, if_neg h]

end Cert.KernelIdeal.Val

end
-- ==== Proof.KIFinal.lean ====
/-
  The output array after the run, and the program's result from it: the two write-backs of the output window tile the
  array with the cores' totals, and the operations after the region sum it and divide by the literal 80000.
-/
import proofs.«414909_j37056977830580_4_alg».proof.Proof.KIAcc
import Idealize.ShloMosaic.Lib.Pipeline.Value
import Idealize.ShloMosaic.Lib.StableHlo.Run
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The output window's block index at a point: the point's core on the rows, zero on the lanes. -/
theorem final_outIndex : ∀ t : Fin cfg0.N, win0_3.index t (0 : Fin 2) = t.val / 8 ∧ win0_3.index t (1 : Fin 2) = 0 :=
  (by decide +kernel : ∀ t : Fin grid0.N, _)

/-- An index of the output array is in point `t`'s block iff each coordinate is in the block's range on its axis. -/
theorem final_mem_outBlk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v74).slice (win0_3.rect t)).set ↔ _
  rw [View.set_slice_whole, Rect.mem_set_unit]
  exact Iff.rfl

/-- `G` at the index with row `8 k + r` (`r < 8`) and lane `q`: core `k`'s total at `r = q = 0`, zero elsewhere. -/
theorem final_G_apply (i : S16x128.Idx) (k r q : ℕ) (h0 : (i 0).val = k * 8 + 1 * r) (h1 : (i 1).val = 0 * 128 + 1 * q) (hr : r < 8) :
    G m c i = if r = 0 ∧ q = 0 then coreTotal m c k else 0 := by
  have hd : (k * 8 + 1 * r) / 8 = k := by omega
  show (if (i 0).val % 8 = 0 ∧ (i 1).val = 0 then coreTotal m c ((i 0).val / 8) else 0) = _
  rw [h0, h1, hd]
  exact if_congr (by omega) rfl rfl

/-- What a point that writes the output back writes is its block of `G`: the block of point `t` is rows
    `8 (t / 8) … 8 (t / 8) + 7`, and the buffer holds core `t / 8`'s total at its entry (0, 0) and zero elsewhere. -/
theorem final_flushed_eq (t : Fin cfg0.N) (hf : (cfg0.win 3).flush t = true) :
    (Fr.dats m 0 c).flushed 3 t = ((cfg0.win 3).blk t).view.read (Elt Ideal) (G m c) := by
  have h1 : t.val % 8 = 7 := (flush0_3 t).mp hf
  show (cfg0.win 3).cut (grid0.coords t) ((Fr.dats m 0 c).after 3 t) = _
  rw [Fr.after0_3]
  funext y
  obtain ⟨r, q, rfl⟩ : ∃ (r : Fin 8) (q : Fin 128), y = ix2 r q := ⟨y 0, y 1, eq_ix2 y⟩
  show (Fr.outAt m c t : S8x128.Idx → EReal) (ix2 r q) = G m c (((cfg0.win 3).blk t).view.emb (ix2 r q))
  rw [outAt_apply m c t h1 r q]
  obtain ⟨e0, e1⟩ := final_outIndex t
  exact (final_G_apply m c _ (t.val / 8) r.val q.val
    (by show win0_3.index t (0 : Fin 2) * 8 + 1 * r.val = _; rw [e0])
    (by show win0_3.index t (1 : Fin 2) * 128 + 1 * q.val = _; rw [e1]) r.isLt).symm

/-- The output array ends with each core's total at the first entry of the core's block and zero elsewhere: the two
    points that write the array back (the cores' last rows) write the two 8 × 128 blocks that tile it. -/
theorem final : ((Fr.dats m 0 c).arrAt 3 cfg0.N : S16x128.Idx → EReal) = G m c := by
  refine (Fr.dats m 0 c).arrAt_eq_of_cover 3 (G m c) (fun t hf => final_flushed_eq m c t hf) fun i => ?_
  have hi0 : (i 0).val < 16 := (i 0).isLt
  have hi1 : (i 1).val < 128 := (i 1).isLt
  have hN : cfg0.N = 16 := N_0
  -- row `i 0` lies in the block of the last point of its core, `8 (i 0 / 8) + 7`
  obtain ⟨t, ht⟩ : ∃ t : Fin cfg0.N, t.val = 8 * ((i 0).val / 8) + 7 := ⟨⟨8 * ((i 0).val / 8) + 7, by omega⟩, rfl⟩
  refine ⟨t, (flush0_3 t).mpr (by omega), ?_⟩
  rw [final_mem_outBlk]
  obtain ⟨e0, e1⟩ := final_outIndex t
  intro a
  match a with
  | ⟨0, _⟩ =>
    show win0_3.index t (0 : Fin 2) * 8 ≤ (i 0).val ∧ (i 0).val < win0_3.index t (0 : Fin 2) * 8 + 8
    rw [e0, ht]; omega
  | ⟨1, _⟩ =>
    show win0_3.index t (1 : Fin 2) * 128 ≤ (i 1).val ∧ (i 1).val < win0_3.index t (1 : Fin 2) * 128 + 128
    rw [e1]; omega

/-- The program's result: the sum of the output array over the literal 80000. -/
theorem tail_eq :
    (Pipeline.afterTail₀ cfgs (Fr.dats m) 0 (Fr.V0 m) [hostOps1] c main_v76 : S_.Idx → EReal)
      = fun _ => Ideal.div (∑ i : S16x128.Idx, G m c i) (Ideal.ofBits .f32 0x479C4000#32) := by
  unfold Pipeline.afterTail₀
  show StableHlo.after hostOps1 _ (Proc.devRef .tc main_v76) = _
  after_results
  -- the operations after the region find the output array at `G`
  have hA : (Pipeline.withArrays (cfgs 0).spec c (Fr.V0 m c) (fun w => (Fr.dats m 0 c).arrAt w (cfgs 0).N)
      (Proc.devRef .tc main_v74) : S16x128.Idx → EReal) = G m c :=
    (Pipeline.withArrays_arr spec0 launch0.win.arr_inj c _ _ 3).trans (final m c)
  rw [hA]
  funext j
  show FloatOps.hostDivf (Host.reduceAdd (F := Ideal) (G m c) (constant (F := Ideal) S_ .f32 0x00000000#32) reducesTo_S16x128_S_d0_1 h_S_ j)
      (constant (F := Ideal) S_ .f32 0x479C4000#32 j) = _
  rw [Ideal.hostDivf_def]
  -- the reduction over both axes is the initial value, zero, plus the total sum
  have hsum : Host.reduceAdd (F := Ideal) (G m c) (constant (F := Ideal) S_ .f32 0x00000000#32) reducesTo_S16x128_S_d0_1 h_S_ j
      = ∑ i : S16x128.Idx, G m c i := by
    simp only [Host.reduceAdd, Ideal.hostReduceAdd_def]
    refine (Ideal.hostReduceAdd_total reducesTo_S16x128_S_d0_1 (fun b => b.elim0) (G m c) _ j).trans ?_
    show Ideal.ofBits .f32 0x00000000#32 + _ = _
    rw [Ideal.ofBits_zero_f32, zero_add]
  rw [hsum]
  rfl

end Cert.KernelIdeal.Val

end
-- ==== Proof.KIHost.lean ====
/-
  The three padded arrays read at an index: each is a [16, 5000] array padded with a constant to 5120 lanes and viewed
  [16, 1, 5120], computed by the last host operations before the region from the sums, the counts and the runoffs.
-/
import proofs.«414909_j37056977830580_4_alg».proof.Proof.KIDefs
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.KernelVsHost
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

namespace HostArr

/-- Running one list of operations after another is running their concatenation. -/
theorem after_append (A B : List (HloOp τ sig (Elt Ideal))) (V : Valuation τ sig (Elt Ideal)) :
    StableHlo.after (A ++ B) V = StableHlo.after B (StableHlo.after A V) := by
  induction A generalizing V with
  | nil => rfl
  | cons a A ih => exact ih _

/-- The last 23 host operations before the region: from the two reductions that give the counts and the sums on. -/
abbrev tl : List (HloOp τ sig (Elt Ideal)) := List.drop 87 (List.flatten (Fr.prefixOps (F := Ideal)))

/-- What the region finds is what those 23 operations make of what the first 87 leave. -/
theorem V0_split : Fr.V0 m c
    = StableHlo.after tl (StableHlo.after (List.take 87 (List.flatten (Fr.prefixOps (F := Ideal)))) (fun b => m (c, b))) := by
  unfold tl
  rw [← after_append, List.take_append_drop]

/-- The padded means, whatever the first 87 operations leave: the quotient of sums and guarded counts, padded and reshaped. -/
theorem tl_A (G : Valuation τ sig (Elt Ideal)) :
    (StableHlo.after tl G (Proc.devRef .tc main_v71) : S16x1x5120.Idx → EReal)
      = shapeCast S16x1x5120 (pad S16x5120 ![0, 0] ![0, 120] ![0, 0]
          (Host.divf (F := Ideal) (StableHlo.after tl G (Proc.devRef .tc main_v65) : S16x5000.Idx → EReal)
            (maximumf (F := Ideal) (StableHlo.after tl G (Proc.devRef .tc main_v61) : S16x5000.Idx → EReal)
              (broadcastInDim S16x5000 ![] bcast_S_S16x5000 (constant (F := Ideal) S_ .f32 0x3F800000#32))))
          (sitofp (F := Ideal) .f32 (constantI S_ 32 0#32)) pads_S16x5000_S16x5120_000_01200 h_S_) shapeCasts_S16x5120_S16x1x5120 := by
  simp only [tl, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero]
  after_results_simp
  rfl

/-- The padded runoffs: the third argument padded and reshaped. -/
theorem tl_R (G : Valuation τ sig (Elt Ideal)) :
    (StableHlo.after tl G (Proc.devRef .tc main_v72) : S16x1x5120.Idx → EReal)
      = shapeCast S16x1x5120 (pad S16x5120 ![0, 0] ![0, 120] ![0, 0]
          (StableHlo.after tl G (Proc.devRef .tc main_arg2) : S16x5000.Idx → EReal)
          (sitofp (F := Ideal) .f32 (constantI S_ 32 0#32)) pads_S16x5000_S16x5120_000_01200 h_S_) shapeCasts_S16x5120_S16x1x5120 := by
  simp only [tl, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero]
  after_results_simp
  rfl

/-- The mask: ones padded with zeros and reshaped. -/
theorem tl_M (G : Valuation τ sig (Elt Ideal)) :
    (StableHlo.after tl G (Proc.devRef .tc main_v73) : S16x1x5120.Idx → EReal)
      = shapeCast S16x1x5120 (pad S16x5120 ![0, 0] ![0, 120] ![0, 0]
          (broadcastInDim S16x5000 ![] bcast_S_S16x5000 (constant (F := Ideal) S_ .f32 0x3F800000#32))
          (constant (F := Ideal) S_ .f32 0x00000000#32) pads_S16x5000_S16x5120_000_01200 h_S_) shapeCasts_S16x5120_S16x1x5120 := by
  simp only [tl, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero]
  after_results_simp
  rfl

/-- A [16, 5000] array padded to 5120 lanes and viewed [16, 1, 5120], read at `(r, 0, j)`: the array at `(r, j)` on
    the first 5000 lanes, the padding value past them. -/
theorem padded_apply (X : S16x5000.Idx → EReal) (v : S_.Idx → EReal) (r : Fin 16) (j : Fin 5120) :
    shapeCast S16x1x5120 (pad S16x5120 ![0, 0] ![0, 120] ![0, 0] X v pads_S16x5000_S16x5120_000_01200 h_S_)
        shapeCasts_S16x5120_S16x1x5120 (ix3 r (0 : Fin 1) j)
      = if h : j.val < 5000 then X (ix2 r (⟨j.val, h⟩ : Fin 5000)) else v (Shape.Idx.first h_S_) := by
  refine (shapeCast_apply _ _ (ix3 r (0 : Fin 1) j) (ix2 r j) (by
    rw [Shape.rowMajor_val_two, Shape.rowMajor_val_three]
    show r.val * 5120 + j.val = (r.val * 1 + 0) * 5120 + j.val
    omega)).trans ?_
  by_cases h : j.val < 5000
  · rw [dif_pos h]
    exact pad_apply_of_inside _ _ _ X v pads_S16x5000_S16x5120_000_01200 h_S_ (ix2 r j) (ix2 r (⟨j.val, h⟩ : Fin 5000))
      (fun a => match a with
        | ⟨0, _⟩ => by show r.val = 0 + r.val * (0 + 1); omega
        | ⟨1, _⟩ => by show j.val = 0 + j.val * (0 + 1); omega)
  · rw [dif_neg h]
    exact pad_apply_of_not_inside _ _ _ X v pads_S16x5000_S16x5120_000_01200 h_S_ (ix2 r j) (1 : Fin 2) (by
      intro hin
      have e : (j.val - 0) / (0 + 1) < 5000 := hin.2.2
      omega)

/-- The padded means as the region finds them, in terms of the sums and the counts. -/
theorem arrA_eq : arrA m c
    = shapeCast S16x1x5120 (pad S16x5120 ![0, 0] ![0, 120] ![0, 0]
        (Host.divf (F := Ideal) (numK m c)
          (maximumf (F := Ideal) (cntK m c)
            (broadcastInDim S16x5000 ![] bcast_S_S16x5000 (constant (F := Ideal) S_ .f32 0x3F800000#32))))
        (sitofp (F := Ideal) .f32 (constantI S_ 32 0#32)) pads_S16x5000_S16x5120_000_01200 h_S_) shapeCasts_S16x5120_S16x1x5120 := by
  unfold arrA numK cntK
  dsimp only [Fr.V]
  rw [V0_split m c]
  exact tl_A _

/-- The padded runoffs as the region finds them, in terms of the launched runoffs. -/
theorem arrR_eq : arrR m c
    = shapeCast S16x1x5120 (pad S16x5120 ![0, 0] ![0, 120] ![0, 0] (roffK m c)
        (sitofp (F := Ideal) .f32 (constantI S_ 32 0#32)) pads_S16x5000_S16x5120_000_01200 h_S_) shapeCasts_S16x5120_S16x1x5120 := by
  unfold arrR roffK
  rw [← Fr.V_main_arg2 m c]
  dsimp only [Fr.V]
  rw [V0_split m c]
  exact tl_R _

/-- The mask as the region finds it. -/
theorem arrM_eq : arrM m c
    = shapeCast S16x1x5120 (pad S16x5120 ![0, 0] ![0, 120] ![0, 0]
        (broadcastInDim S16x5000 ![] bcast_S_S16x5000 (constant (F := Ideal) S_ .f32 0x3F800000#32))
        (constant (F := Ideal) S_ .f32 0x00000000#32) pads_S16x5000_S16x5120_000_01200 h_S_) shapeCasts_S16x5120_S16x1x5120 := by
  unfold arrM
  dsimp only [Fr.V]
  rw [V0_split m c]
  exact tl_M _

/-- The quotient by the count guarded from below by the constant one, at an index. -/
theorem mean_apply (N C : S16x5000.Idx → EReal) (i : S16x5000.Idx) :
    Host.divf (F := Ideal) N (maximumf (F := Ideal) C
        (broadcastInDim S16x5000 ![] bcast_S_S16x5000 (constant (F := Ideal) S_ .f32 0x3F800000#32))) i
      = Ideal.div (N i) (max (C i) 1) := by
  show Ideal.div (N i) (max (C i) (Ideal.ofBits .f32 0x3F800000#32)) = _
  rw [Ideal.ofBits_one_f32]

/-- The integer zero converted is zero. -/
theorem izero_apply (i : S_.Idx) : sitofp (F := Ideal) .f32 (constantI S_ 32 0#32) i = (0 : EReal) := by
  show ((((0#32 : BitVec 32).toInt : ℤ) : ℝ) : EReal) = 0
  simp

/-- The broadcast constant one, at an index. -/
theorem one_apply (i : S16x5000.Idx) :
    broadcastInDim S16x5000 ![] bcast_S_S16x5000 (constant (F := Ideal) S_ .f32 0x3F800000#32) i = (1 : EReal) := by
  show Ideal.ofBits .f32 0x3F800000#32 = 1
  exact Ideal.ofBits_one_f32

/-- The float constant zero, at an index. -/
theorem fzero_apply (i : S_.Idx) : constant (F := Ideal) S_ .f32 0x00000000#32 i = (0 : EReal) := by
  show Ideal.ofBits .f32 0x00000000#32 = 0
  exact Ideal.ofBits_zero_f32

end HostArr

/-- The padded window means: the guarded mean on the first 5000 lanes of a row, zero on the padding. -/
theorem A_apply (r : Fin 16) (j : Fin 5120) :
    arrA m c (ix3 r (0 : Fin 1) j) = if h : j.val < 5000 then avgK m c r ⟨j.val, h⟩ else 0 := by
  rw [HostArr.arrA_eq m c, HostArr.padded_apply]
  by_cases h : j.val < 5000
  · rw [dif_pos h, dif_pos h, HostArr.mean_apply]
    rfl
  · rw [dif_neg h, dif_neg h, HostArr.izero_apply]

/-- The padded runoffs. -/
theorem R_apply (r : Fin 16) (j : Fin 5120) :
    arrR m c (ix3 r (0 : Fin 1) j) = if h : j.val < 5000 then roffK m c (ix2 r (⟨j.val, h⟩ : Fin 5000)) else 0 := by
  rw [HostArr.arrR_eq m c, HostArr.padded_apply]
  by_cases h : j.val < 5000
  · rw [dif_pos h, dif_pos h]
  · rw [dif_neg h, dif_neg h, HostArr.izero_apply]

/-- The mask: one on real stations, zero on the padding. -/
theorem M_apply (r : Fin 16) (j : Fin 5120) :
    arrM m c (ix3 r (0 : Fin 1) j) = if j.val < 5000 then (1 : EReal) else 0 := by
  rw [HostArr.arrM_eq m c, HostArr.padded_apply]
  by_cases h : j.val < 5000
  · rw [dif_pos h, if_pos h, HostArr.one_apply]
  · rw [dif_neg h, if_neg h, HostArr.fzero_apply]

end Cert.KernelIdeal.Val

end
-- ==== Proof.Spec.lean ====
/-
  The loss as one sum, in the two groupings the programs use.

  Both programs compute, per station `(r, s)` with `r < 16`, `s < 5000`, a squared error `f r s`, and return
  the sum of all of them divided by 80000. The reference sums the 16 × 5000 entries directly. The kernel pads each
  row to 5120 lanes with zero terms, views the lanes as 40 groups of 128, splits the rows between two cores
  (8 rows each), and on each core first adds the 8 rows lane by lane and then sums the 40 × 128 lanes.
  `kernelSum_eq_refSum` says the two groupings give the same extended real: only commutativity and
  associativity of `+` on `EReal` and `x + 0 = x` are used, so no finiteness is needed.
-/
import Mathlib.Data.EReal.Basic
import Mathlib.Data.EReal.Operations
import Mathlib.Algebra.BigOperators.Fin
import Mathlib.Algebra.BigOperators.Group.Finset.Basic

noncomputable section

namespace Cert.Spec

open scoped BigOperators

/-- A row of 5000 terms padded to 5120 lanes with zeros. -/
def padRow (f : Fin 5000 → EReal) (j : Fin 5120) : EReal :=
  if h : j.val < 5000 then f ⟨j.val, h⟩ else 0

/-- The squared error of one station. -/
def sqErr (a r : EReal) : EReal := (a - r) * (a - r)

/-- The kernel's grouping: core `c`, lane group `g`, lane `l`, row `b` of the core. -/
def kernelSum (f : Fin 16 → Fin 5000 → EReal) : EReal :=
  ∑ c : Fin 2, ∑ g : Fin 40, ∑ l : Fin 128, ∑ b : Fin 8,
    padRow (f ⟨8 * c.val + b.val, by omega⟩) ⟨128 * g.val + l.val, by omega⟩

/-- The reference's grouping: every station once. -/
def refSum (f : Fin 16 → Fin 5000 → EReal) : EReal := ∑ r : Fin 16, ∑ s : Fin 5000, f r s

end Cert.Spec

end
-- ==== Proof.SumAlgebra.lean ====
/-
  The two groupings of the loss sum agree: flatten each product index, drop the zero padding, and commute the sums.
-/
import proofs.«414909_j37056977830580_4_alg».proof.Proof.Spec
import Mathlib.Algebra.BigOperators.Group.Finset.Sigma
import Mathlib.Data.Fintype.BigOperators
import Mathlib.Logic.Equiv.Fin.Basic

noncomputable section

namespace Cert.Spec

open scoped BigOperators

/-- Summing over a product index `(a, b)` flattened as `n * a + b` is summing over `Fin N` when `m * n = N`. -/
theorem sum_fin_mul {M : Type*} [AddCommMonoid M] {m n N : ℕ} (h : m * n = N) (T : Fin N → M)
    (hb : ∀ (a : Fin m) (b : Fin n), n * a.val + b.val < N) :
    ∑ a : Fin m, ∑ b : Fin n, T ⟨n * a.val + b.val, hb a b⟩ = ∑ j : Fin N, T j := by
  subst h
  rw [← Equiv.sum_comp finProdFinEquiv T, Fintype.sum_prod_type]
  refine Finset.sum_congr rfl fun a _ => Finset.sum_congr rfl fun b _ => ?_
  congr 1
  apply Fin.ext
  simp only [finProdFinEquiv_apply_val]
  exact Nat.add_comm _ _

/-- The zero padding contributes nothing to a row's sum. -/
theorem sum_padRow (f : Fin 5000 → EReal) : ∑ j : Fin 5120, padRow f j = ∑ s : Fin 5000, f s := by
  have h := Fin.sum_trunc (a := 5000) (b := 120) (fun j : Fin (5000 + 120) => padRow f j) (by
    intro j
    have : ¬ ((Fin.natAdd 5000 j).val < 5000) := by simp
    simp only [padRow, dif_neg this])
  refine h.trans (Finset.sum_congr rfl fun i _ => ?_)
  have hi : (Fin.castAdd 120 i).val < 5000 := by simp
  simp only [padRow, dif_pos hi]
  rfl

/-- The kernel's grouping (two cores × 40 lane groups × 128 lanes × 8 rows, rows padded with zero terms to 5120
    lanes) and the reference's (16 rows × 5000 stations) are the same extended real. -/
theorem kernelSum_eq_refSum (f : Fin 16 → Fin 5000 → EReal) : kernelSum f = refSum f := by
  unfold kernelSum refSum
  -- bring the row index of the core next to the core index
  have hcomm : ∀ c : Fin 2,
      (∑ g : Fin 40, ∑ l : Fin 128, ∑ b : Fin 8,
        padRow (f ⟨8 * c.val + b.val, by omega⟩) ⟨128 * g.val + l.val, by omega⟩)
      = ∑ b : Fin 8, ∑ s : Fin 5000, f ⟨8 * c.val + b.val, by omega⟩ s := by
    intro c
    calc (∑ g : Fin 40, ∑ l : Fin 128, ∑ b : Fin 8,
          padRow (f ⟨8 * c.val + b.val, by omega⟩) ⟨128 * g.val + l.val, by omega⟩)
        = ∑ g : Fin 40, ∑ b : Fin 8, ∑ l : Fin 128,
          padRow (f ⟨8 * c.val + b.val, by omega⟩) ⟨128 * g.val + l.val, by omega⟩ :=
          Finset.sum_congr rfl fun g _ => Finset.sum_comm
      _ = ∑ b : Fin 8, ∑ g : Fin 40, ∑ l : Fin 128,
          padRow (f ⟨8 * c.val + b.val, by omega⟩) ⟨128 * g.val + l.val, by omega⟩ :=
          Finset.sum_comm
      _ = ∑ b : Fin 8, ∑ s : Fin 5000, f ⟨8 * c.val + b.val, by omega⟩ s :=
          Finset.sum_congr rfl fun b _ => by
            rw [← sum_padRow]
            exact sum_fin_mul (m := 40) (n := 128) (by norm_num)
              (fun j => padRow (f ⟨8 * c.val + b.val, by omega⟩) j) (fun g l => by omega)
  calc (∑ c : Fin 2, ∑ g : Fin 40, ∑ l : Fin 128, ∑ b : Fin 8,
        padRow (f ⟨8 * c.val + b.val, by omega⟩) ⟨128 * g.val + l.val, by omega⟩)
      = ∑ c : Fin 2, ∑ b : Fin 8, ∑ s : Fin 5000, f ⟨8 * c.val + b.val, by omega⟩ s :=
        Finset.sum_congr rfl fun c _ => hcomm c
    _ = ∑ r : Fin 16, ∑ s : Fin 5000, f r s :=
        sum_fin_mul (m := 2) (n := 8) (by norm_num) (fun r => ∑ s : Fin 5000, f r s)
          (fun c b => by omega)

end Cert.Spec

end
-- ==== Proof.KIValue.lean ====
/-
  The kernel program's result as the specification's sum.

  The output array holds each core's total at the first entry of the core's block and zero elsewhere, so its sum is
  the two totals. A core's total is the sum over its eight rows and the 40 × 128 lanes of the rows' contributions;
  with the three padded arrays read at an index a contribution is the station's squared error (mean minus runoff,
  squared, times a mask that is one) on the first 5000 lanes and zero (the squared difference of two zeros, times
  zero) on the padding. That is the kernel's grouping of the loss sum, which equals the reference's.
-/
import proofs.«414909_j37056977830580_4_alg».proof.Proof.KIFinal
import proofs.«414909_j37056977830580_4_alg».proof.Proof.KIHost
import proofs.«414909_j37056977830580_4_alg».proof.Proof.Spec
import proofs.«414909_j37056977830580_4_alg».proof.Proof.SumAlgebra

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The squared error of station `(r, s)`: the guarded window mean against the runoff. -/
def errK (r : Fin 16) (s : Fin 5000) : EReal := Cert.Spec.sqErr (avgK m c r s) (roffK m c (ix2 r s))

/-- A row's contribution to a lane is the row's squared errors padded with zeros, at that lane. -/
theorem term_eq (r : Fin 16) (g : Fin 40) (l : Fin 128) :
    term m c r g l = Cert.Spec.padRow (errK m c r) (lane g l) := by
  unfold term Cert.Spec.padRow errK Cert.Spec.sqErr
  rw [A_apply, R_apply, M_apply]
  by_cases h : (lane g l).val < 5000
  · rw [dif_pos h, dif_pos h, if_pos h, dif_pos h, mul_one]
  · rw [dif_neg h, dif_neg h, if_neg h, dif_neg h, mul_zero]

/-- One core's total, over its eight rows as a finite type. -/
theorem coreTotal_eq (k : ℕ) (hk : k < 2) :
    coreTotal m c k = ∑ g : Fin 40, ∑ l : Fin 128, ∑ b : Fin 8,
      Cert.Spec.padRow (errK m c ⟨8 * k + b.val, by omega⟩) ⟨128 * g.val + l.val, by omega⟩ := by
  unfold coreTotal
  refine Finset.sum_congr rfl fun g _ => Finset.sum_congr rfl fun l _ => ?_
  rw [Finset.sum_range]
  refine Finset.sum_congr rfl fun b _ => ?_
  have hb : 8 * k + b.val < 16 := by omega
  unfold termN
  rw [dif_pos hb, term_eq]
  rfl

/-- The output array sums to the two cores' totals. -/
theorem sumG : ∑ i : S16x128.Idx, G m c i = coreTotal m c 0 + coreTotal m c 1 := by
  rw [sum_idx2]
  have inner : ∀ a : Fin 16, ∑ b : Fin 128, G m c (ix2 a b)
      = if a.val % 8 = 0 then coreTotal m c (a.val / 8) else 0 := by
    intro a
    by_cases ha : a.val % 8 = 0
    · rw [if_pos ha, Finset.sum_eq_single (⟨0, by omega⟩ : Fin 128)]
      · show (if (a.val % 8 = 0 ∧ (0 : ℕ) = 0) then coreTotal m c (a.val / 8) else 0) = _
        rw [if_pos ⟨ha, rfl⟩]
      · intro b _ hb
        have hb' : b.val ≠ 0 := fun h => hb (Fin.ext h)
        show (if (a.val % 8 = 0 ∧ b.val = 0) then coreTotal m c (a.val / 8) else 0) = _
        rw [if_neg (fun h => hb' h.2)]
      · intro h; exact absurd (Finset.mem_univ _) h
    · rw [if_neg ha]
      refine Finset.sum_eq_zero fun b _ => ?_
      show (if (a.val % 8 = 0 ∧ b.val = 0) then coreTotal m c (a.val / 8) else 0) = _
      rw [if_neg (fun h => ha h.1)]
  simp only [inner]
  rw [Fin.sum_univ_eq_sum_range (fun n => if n % 8 = 0 then coreTotal m c (n / 8) else 0) 16]
  simp [Finset.sum_range_succ]

/-- The kernel program's result: the sum over all stations of the squared error of the guarded window mean against
    the runoff, over the literal 80000. -/
theorem result_eq :
    (Pipeline.afterTail₀ cfgs (Fr.dats m) 0 (Fr.V0 m) [hostOps1] c main_v76 : S_.Idx → EReal)
      = fun _ => Ideal.div (Cert.Spec.refSum (errK m c)) (Ideal.ofBits .f32 0x479C4000#32) := by
  rw [tail_eq, sumG, ← Cert.Spec.kernelSum_eq_refSum]
  rw [coreTotal_eq m c 0 (by omega), coreTotal_eq m c 1 (by omega)]
  unfold Cert.Spec.kernelSum
  rw [Fin.sum_univ_two]
  rfl

end Cert.KernelIdeal.Val

end
-- ==== Proof.KIChain.lean ====
/-
  The kernel's host prefix computes the reference's numerators and counts.

  The line of host operations before the region is cut at a few points. Between two cuts the operations are read as a
  function of what the buffers held at the earlier cut; the buffers a later stretch reads are carried from cut to cut.
  At every cut the buffers that matter hold the reference's stage of the same name, applied to the launched arguments:
  the two programs apply the same operations to the same arrays up to the count's guard.
-/
import proofs.«414909_j37056977830580_4_alg».proof.Proof.KIDefs
import proofs.«414909_j37056977830580_4_alg».proof.Proof.ReadP
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (c : Dev nD)

namespace Chain

open Idealize.ShloMosaic.StableHlo

/-- The whole line of host operations before the region. -/
abbrev P : List (HloOp τ sig (Elt Ideal)) := List.flatten (Fr.prefixOps (F := Ideal))

/-- Its operations number `a` to `b - 1`. -/
abbrev seg (a b : Nat) : List (HloOp τ sig (Elt Ideal)) := List.drop a (List.take b P)

/-- Running one list of operations after another is running their concatenation. -/
theorem after_append (A B : List (HloOp τ sig (Elt Ideal))) (V : Valuation τ sig (Elt Ideal)) :
    StableHlo.after (A ++ B) V = StableHlo.after B (StableHlo.after A V) := by
  induction A generalizing V with
  | nil => rfl
  | cons a A ih => exact ih _

/-- The buffers' contents after the first `k` operations. -/
def A (k : Nat) : Valuation τ sig (Elt Ideal) := StableHlo.after (List.take k P) (fun b => m (c, b))

/-- The first `b` operations are the first `a` and then those from `a` to `b - 1`. -/
theorem A_step (a b : Nat) (h : a ≤ b) : A m c b = StableHlo.after (seg a b) (A m c a) := by
  unfold A seg
  rw [← after_append]
  congr 1
  conv_lhs => rw [← List.take_append_drop a (List.take b P)]
  rw [List.take_take, Nat.min_eq_left h]

/-- What the region finds is what the operations from `k` on make of what the first `k` leave. -/
theorem V0_cut (k : Nat) : Fr.V0 m c = StableHlo.after (List.drop k P) (A m c k) := by
  unfold A
  rw [← after_append, List.take_append_drop]

/-- No host operation before the region writes the first argument. -/
theorem P_keeps_arg0 : ∀ op ∈ (P : List (HloOp τ sig (Elt Ideal))), Proc.devRef .tc main_arg0 ∉ op.writes :=
  List.forall_iff_forall_mem.mp (by
    simp only [P, Fr.prefixOps, hostOps0, hostOps0_1, hostOps0_2, hostOps0_3, hostOps0_4, hostOps0_5, hostOps0_6, hostOps0_7, hostOps0_8, hostOps0_9, hostOps0_10, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- So after any number of them it is as launched. -/
theorem A_arg0 (k : Nat) : A m c k (Proc.devRef .tc main_arg0) = m ((c.tc : Thread nD τ).loc main_arg0) := by
  unfold A
  exact StableHlo.after_of_forall_not_mem _ _ (fun op h => P_keeps_arg0 op (List.mem_of_mem_take h))

variable (G : Valuation τ sig (Elt Ideal))
  (x0 : (⟨Cert.ReferenceIdeal.S16x1x2048x2048, .f32⟩ : BufTy).Contents (Elt Ideal))
  (x1 : (⟨Cert.ReferenceIdeal.S16x5000x2, .i32⟩ : BufTy).Contents (Elt Ideal))

/-- Operations 0 to 21: the two coordinate arrays of the neighbours. -/
theorem s1 (h1 : G (Proc.devRef .tc main_arg1) = x1) :
    StableHlo.after (seg 0 22) G (Proc.devRef .tc main_v15) = Cert.ReferenceIdeal.ReadP.val_main_v15 (F := Ideal) x1
    ∧ StableHlo.after (seg 0 22) G (Proc.devRef .tc main_v20) = Cert.ReferenceIdeal.ReadP.val_main_v20 (F := Ideal) x1 := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_⟩
  · after_results_simp
    rw [h1]
    rfl
  · after_results_simp
    rw [h1]
    rfl

/-- Operations 22 to 36: which neighbours are valid. -/
theorem s2 (h15 : G (Proc.devRef .tc main_v15) = Cert.ReferenceIdeal.ReadP.val_main_v15 (F := Ideal) x1) (h20 : G (Proc.devRef .tc main_v20) = Cert.ReferenceIdeal.ReadP.val_main_v20 (F := Ideal) x1) :
    StableHlo.after (seg 22 37) G (Proc.devRef .tc main_v31) = Cert.ReferenceIdeal.ReadP.val_main_v31 (F := Ideal) x1
    ∧ StableHlo.after (seg 22 37) G (Proc.devRef .tc main_v15) = G (Proc.devRef .tc main_v15)
    ∧ StableHlo.after (seg 22 37) G (Proc.devRef .tc main_v20) = G (Proc.devRef .tc main_v20) := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_, ?_⟩
  · after_results_simp
    rw [h15, h20]
    rfl
  · after_results_simp
  · after_results_simp

/-- Operations 37 to 44: the first coordinate clipped. -/
theorem s3 (h15 : G (Proc.devRef .tc main_v15) = Cert.ReferenceIdeal.ReadP.val_main_v15 (F := Ideal) x1) :
    StableHlo.after (seg 37 45) G (Proc.devRef .tc main_v32) = Cert.ReferenceIdeal.ReadP.val_main_v32 (F := Ideal) x1
    ∧ StableHlo.after (seg 37 45) G (Proc.devRef .tc main_v20) = G (Proc.devRef .tc main_v20)
    ∧ StableHlo.after (seg 37 45) G (Proc.devRef .tc main_v31) = G (Proc.devRef .tc main_v31) := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_, ?_⟩
  · after_results_simp
    rw [h15]
    rfl
  · after_results_simp
  · after_results_simp

/-- Operations 45 to 52: the second coordinate clipped. -/
theorem s4 (h20 : G (Proc.devRef .tc main_v20) = Cert.ReferenceIdeal.ReadP.val_main_v20 (F := Ideal) x1) :
    StableHlo.after (seg 45 53) G (Proc.devRef .tc main_v33) = Cert.ReferenceIdeal.ReadP.val_main_v33 (F := Ideal) x1
    ∧ StableHlo.after (seg 45 53) G (Proc.devRef .tc main_v31) = G (Proc.devRef .tc main_v31)
    ∧ StableHlo.after (seg 45 53) G (Proc.devRef .tc main_v32) = G (Proc.devRef .tc main_v32) := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_, ?_⟩
  · after_results_simp
    rw [h20]
    rfl
  · after_results_simp
  · after_results_simp

/-- Operations 53 to 83: the four coordinate arrays the gather's index array is joined from. -/
theorem s5a (h32 : G (Proc.devRef .tc main_v32) = Cert.ReferenceIdeal.ReadP.val_main_v32 (F := Ideal) x1) (h33 : G (Proc.devRef .tc main_v33) = Cert.ReferenceIdeal.ReadP.val_main_v33 (F := Ideal) x1) :
    StableHlo.after (seg 53 84) G (Proc.devRef .tc main_v54) = Cert.ReferenceIdeal.ReadP.val_main_v54 (F := Ideal)
    ∧ StableHlo.after (seg 53 84) G (Proc.devRef .tc main_v55) = Cert.ReferenceIdeal.ReadP.val_main_v55 (F := Ideal)
    ∧ StableHlo.after (seg 53 84) G (Proc.devRef .tc main_v56) = Cert.ReferenceIdeal.ReadP.val_main_v56 (F := Ideal) x1
    ∧ StableHlo.after (seg 53 84) G (Proc.devRef .tc main_v57) = Cert.ReferenceIdeal.ReadP.val_main_v57 (F := Ideal) x1
    ∧ StableHlo.after (seg 53 84) G (Proc.devRef .tc main_v31) = G (Proc.devRef .tc main_v31) := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_, ?_, ?_, ?_⟩
  · after_results_simp
    rfl
  · after_results_simp
    rfl
  · after_results_simp
    rw [h32]
    rfl
  · after_results_simp
    rw [h33]
    rfl
  · after_results_simp

/-- Operation 84: the gather's index array, the four joined. -/
theorem s5b (h54 : G (Proc.devRef .tc main_v54) = Cert.ReferenceIdeal.ReadP.val_main_v54 (F := Ideal)) (h55 : G (Proc.devRef .tc main_v55) = Cert.ReferenceIdeal.ReadP.val_main_v55 (F := Ideal))
    (h56 : G (Proc.devRef .tc main_v56) = Cert.ReferenceIdeal.ReadP.val_main_v56 (F := Ideal) x1) (h57 : G (Proc.devRef .tc main_v57) = Cert.ReferenceIdeal.ReadP.val_main_v57 (F := Ideal) x1) :
    StableHlo.after (seg 84 85) G (Proc.devRef .tc main_v58) = Cert.ReferenceIdeal.ReadP.val_main_v58 (F := Ideal) x1
    ∧ StableHlo.after (seg 84 85) G (Proc.devRef .tc main_v31) = G (Proc.devRef .tc main_v31) := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_⟩
  · simp only [after_cons, after_nil]
    rw [nary_result]
    show concatenate S16x5000x9x4 3 [⟨S16x5000x9x1, G (Proc.devRef .tc main_v54)⟩, ⟨S16x5000x9x1, G (Proc.devRef .tc main_v55)⟩,
      ⟨S16x5000x9x1, G (Proc.devRef .tc main_v56)⟩, ⟨S16x5000x9x1, G (Proc.devRef .tc main_v57)⟩]
      concatenates_S16x5000x9x1_S16x5000x9x1_S16x5000x9x1_S16x5000x9x1_S16x5000x9x4_d3 = _
    rw [h54, h55, h56, h57]
    rfl
  · after_results_simp

/-- Operations 85 to 94: the gather, the counts and the sums. -/
theorem s6 (h0 : G (Proc.devRef .tc main_arg0) = x0) (h58 : G (Proc.devRef .tc main_v58) = Cert.ReferenceIdeal.ReadP.val_main_v58 (F := Ideal) x1) (h31 : G (Proc.devRef .tc main_v31) = Cert.ReferenceIdeal.ReadP.val_main_v31 (F := Ideal) x1) :
    StableHlo.after (seg 85 95) G (Proc.devRef .tc main_v61) = Cert.ReferenceIdeal.ReadP.val_main_v61 (F := Ideal) x1
    ∧ StableHlo.after (seg 85 95) G (Proc.devRef .tc main_v65) = Cert.ReferenceIdeal.ReadP.val_main_v63 (F := Ideal) x0 x1 := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_⟩
  · after_results_simp
    rw [h31]
    rfl
  · after_results_simp
    rw [h0, h58, h31]
    rfl

/-- The operations from 95 on write neither the counts nor the sums. -/
theorem s7 :
    StableHlo.after (List.drop 95 P) G (Proc.devRef .tc main_v61) = G (Proc.devRef .tc main_v61)
    ∧ StableHlo.after (List.drop 95 P) G (Proc.devRef .tc main_v65) = G (Proc.devRef .tc main_v65) := by
  simp only [seg, P, Fr.prefixOps, hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append, List.nil_append, List.drop_succ_cons, List.drop_zero, List.take_succ_cons, List.take_zero]
  refine ⟨?_, ?_⟩
  · after_results_simp
  · after_results_simp

/-! The cut points, one after the other, from the launched arguments. -/

theorem A22 : A m c 22 (Proc.devRef .tc main_v15) = Cert.ReferenceIdeal.ReadP.val_main_v15 (F := Ideal) (m ((c.tc : Thread nD τ).loc main_arg1))
    ∧ A m c 22 (Proc.devRef .tc main_v20) = Cert.ReferenceIdeal.ReadP.val_main_v20 (F := Ideal) (m ((c.tc : Thread nD τ).loc main_arg1)) :=
  s1 (fun b => m (c, b)) _ rfl

theorem A37 : A m c 37 (Proc.devRef .tc main_v31) = Cert.ReferenceIdeal.ReadP.val_main_v31 (F := Ideal) (m ((c.tc : Thread nD τ).loc main_arg1))
    ∧ A m c 37 (Proc.devRef .tc main_v15) = Cert.ReferenceIdeal.ReadP.val_main_v15 (F := Ideal) (m ((c.tc : Thread nD τ).loc main_arg1))
    ∧ A m c 37 (Proc.devRef .tc main_v20) = Cert.ReferenceIdeal.ReadP.val_main_v20 (F := Ideal) (m ((c.tc : Thread nD τ).loc main_arg1)) := by
  rw [A_step m c 22 37 (by decide)]
  have h := s2 (A m c 22) _ (A22 m c).1 (A22 m c).2
  exact ⟨h.1, h.2.1.trans (A22 m c).1, h.2.2.trans (A22 m c).2⟩

theorem A45 : A m c 45 (Proc.devRef .tc main_v32) = Cert.ReferenceIdeal.ReadP.val_main_v32 (F := Ideal) (m ((c.tc : Thread nD τ).loc main_arg1))
    ∧ A m c 45 (Proc.devRef .tc main_v20) = Cert.ReferenceIdeal.ReadP.val_main_v20 (F := Ideal) (m ((c.tc : Thread nD τ).loc main_arg1))
    ∧ A m c 45 (Proc.devRef .tc main_v31) = Cert.ReferenceIdeal.ReadP.val_main_v31 (F := Ideal) (m ((c.tc : Thread nD τ).loc main_arg1)) := by
  rw [A_step m c 37 45 (by decide)]
  have h := s3 (A m c 37) _ (A37 m c).2.1
  exact ⟨h.1, h.2.1.trans (A37 m c).2.2, h.2.2.trans (A37 m c).1⟩

theorem A53 : A m c 53 (Proc.devRef .tc main_v33) = Cert.ReferenceIdeal.ReadP.val_main_v33 (F := Ideal) (m ((c.tc : Thread nD τ).loc main_arg1))
    ∧ A m c 53 (Proc.devRef .tc main_v31) = Cert.ReferenceIdeal.ReadP.val_main_v31 (F := Ideal) (m ((c.tc : Thread nD τ).loc main_arg1))
    ∧ A m c 53 (Proc.devRef .tc main_v32) = Cert.ReferenceIdeal.ReadP.val_main_v32 (F := Ideal) (m ((c.tc : Thread nD τ).loc main_arg1)) := by
  rw [A_step m c 45 53 (by decide)]
  have h := s4 (A m c 45) _ (A45 m c).2.1
  exact ⟨h.1, h.2.1.trans (A45 m c).2.2, h.2.2.trans (A45 m c).1⟩

theorem A84 : A m c 84 (Proc.devRef .tc main_v54) = Cert.ReferenceIdeal.ReadP.val_main_v54 (F := Ideal)
    ∧ A m c 84 (Proc.devRef .tc main_v55) = Cert.ReferenceIdeal.ReadP.val_main_v55 (F := Ideal)
    ∧ A m c 84 (Proc.devRef .tc main_v56) = Cert.ReferenceIdeal.ReadP.val_main_v56 (F := Ideal) (m ((c.tc : Thread nD τ).loc main_arg1))
    ∧ A m c 84 (Proc.devRef .tc main_v57) = Cert.ReferenceIdeal.ReadP.val_main_v57 (F := Ideal) (m ((c.tc : Thread nD τ).loc main_arg1))
    ∧ A m c 84 (Proc.devRef .tc main_v31) = Cert.ReferenceIdeal.ReadP.val_main_v31 (F := Ideal) (m ((c.tc : Thread nD τ).loc main_arg1)) := by
  rw [A_step m c 53 84 (by decide)]
  have h := s5a (A m c 53) _ (A53 m c).2.2 (A53 m c).1
  exact ⟨h.1, h.2.1, h.2.2.1, h.2.2.2.1, h.2.2.2.2.trans (A53 m c).2.1⟩

theorem A85 : A m c 85 (Proc.devRef .tc main_v58) = Cert.ReferenceIdeal.ReadP.val_main_v58 (F := Ideal) (m ((c.tc : Thread nD τ).loc main_arg1))
    ∧ A m c 85 (Proc.devRef .tc main_v31) = Cert.ReferenceIdeal.ReadP.val_main_v31 (F := Ideal) (m ((c.tc : Thread nD τ).loc main_arg1)) := by
  rw [A_step m c 84 85 (by decide)]
  have h := s5b (A m c 84) _ (A84 m c).1 (A84 m c).2.1 (A84 m c).2.2.1 (A84 m c).2.2.2.1
  exact ⟨h.1, h.2.trans (A84 m c).2.2.2.2⟩

theorem A95 : A m c 95 (Proc.devRef .tc main_v61) = Cert.ReferenceIdeal.ReadP.val_main_v61 (F := Ideal) (m ((c.tc : Thread nD τ).loc main_arg1))
    ∧ A m c 95 (Proc.devRef .tc main_v65) = Cert.ReferenceIdeal.ReadP.val_main_v63 (F := Ideal) (m ((c.tc : Thread nD τ).loc main_arg0)) (m ((c.tc : Thread nD τ).loc main_arg1)) := by
  rw [A_step m c 85 95 (by decide)]
  exact s6 (A m c 85) _ _ (A_arg0 m c 85) (A85 m c).1 (A85 m c).2

end Chain

/-- Up to the guard on the count the kernel's program applies to its arguments the very host operations the
    reference applies to its own: the sums of valid neighbours' values are the reference's stage of the same arrays, -/
theorem num_eq :
    numK m c = Cert.ReferenceIdeal.ReadP.val_main_v63 (F := Ideal)
      (m ((c.tc : Thread nD τ).loc main_arg0)) (m ((c.tc : Thread nD τ).loc main_arg1)) := by
  unfold numK
  dsimp only [Fr.V]
  rw [Chain.V0_cut m c 95, (Chain.s7 _).2]
  exact (Chain.A95 m c).2

/-- and so are the counts. -/
theorem cnt_eq :
    cntK m c = Cert.ReferenceIdeal.ReadP.val_main_v61 (F := Ideal) (m ((c.tc : Thread nD τ).loc main_arg1)) := by
  unfold cntK
  dsimp only [Fr.V]
  rw [Chain.V0_cut m c 95, (Chain.s7 _).1]
  exact (Chain.A95 m c).1

end Cert.KernelIdeal.Val

end
-- ==== Proof.RefValue.lean ====
/-
  What the reference returns, as the specification's sum: its last stages are a total float sum of squared differences
  and a quotient by the literal 80000; the sum over the rank-2 index set is the double sum over rows and stations.
-/
import proofs.«414909_j37056977830580_4_alg».proof.Proof.RunP
import proofs.«414909_j37056977830580_4_alg».proof.Proof.ReadP
import proofs.«414909_j37056977830580_4_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-- The reference's window mean at station `(r, s)`: the sum of the valid neighbours' values over their count. -/
def avgR (x0 : (⟨S16x1x2048x2048, .f32⟩ : BufTy).Contents (Elt Ideal)) (x1 : (⟨S16x5000x2, .i32⟩ : BufTy).Contents (Elt Ideal))
    (r : Fin 16) (s : Fin 5000) : EReal :=
  Ideal.div (val_main_v63 (F := Ideal) x0 x1 (ix2 r s)) (val_main_v61 (F := Ideal) x1 (ix2 r s))

/-- The reference's result: the sum over all stations of the squared error of the window mean against the runoff,
    divided by the literal 80000. -/
theorem result_eq (m : (ℓ : Loc nD τ sig) → Buf (Elt Ideal) ℓ) (c : Dev nD) :
    Cert.ReferenceIdeal.ValueP.res_out0 (F := Ideal) m c
      = fun _ => Ideal.div (Cert.Spec.refSum fun r s =>
          Cert.Spec.sqErr (avgR (m ((c.tc : Thread nD τ).loc main_arg0)) (m ((c.tc : Thread nD τ).loc main_arg1)) r s)
            (m ((c.tc : Thread nD τ).loc main_arg2) (ix2 r s)))
          (Ideal.ofBits .f32 0x479C4000#32) := by
  refine (val_main_v68_eq (F := Ideal) m c).trans ?_
  funext i
  rw [val_main_v68_apply, val_main_v67_apply]
  simp only [val_main_cst_16_apply, val_main_cst_17_apply, Ideal.hostDivf_def, Ideal.ofBits_def,
    Ideal.ofBits_zero_f32, zero_add]
  rw [sum_idx2]
  simp only [val_main_v66_apply, val_main_v65_apply, val_main_v64_apply, Ideal.hostDivf_def, Ideal.mulf_def,
    Ideal.subf_def]
  rfl

end Cert.ReferenceIdeal.RefValue

end
-- ==== Proof.RefCounts.lean ====
/-
  Under the precondition every position word lies in [-1, 2048] read signed, so every station's 3 × 3 window has a cell
  inside the 2048 × 2048 image and the station's count of valid cells is at least one.
-/
import proofs.«414909_j37056977830580_4_alg».proof.Proof.RunP
import proofs.«414909_j37056977830580_4_alg».proof.Proof.ReadP
import proofs.«414909_j37056977830580_4_alg».proof.Pre_finite_inputs
import proofs.«414909_j37056977830580_4_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-- The precondition bounds every position word: `-1 ≤ p ≤ 2048` read signed. -/
theorem pos_range [Cert.Pre_finite_inputs.Facts]
    (x0 : FVec Ideal Cert.Pre_finite_inputs.S16x1x2048x2048 .f32) (x1 : IVec Cert.Pre_finite_inputs.S16x5000x2 32)
    (x2 : FVec Ideal Cert.Pre_finite_inputs.S16x5000 .f32)
    (hpre : Cert.Pre_finite_inputs.fn (F := Ideal) x0 x1 x2 = fun _ => 1#1)
    (r : Fin 16) (s : Fin 5000) (j : Fin 2) :
    -1 ≤ (x1 (ix3 r s j)).toInt ∧ (x1 (ix3 r s j)).toInt ≤ 2048 := by
  have e := congrFun hpre ix0
  dsimp only [Cert.Pre_finite_inputs.fn] at e
  obtain ⟨-, h14⟩ := IntOp.andi_eq_one.1 e
  haveI : Subsingleton Cert.Pre_finite_inputs.S_.Idx := ⟨fun a b => funext fun d => d.elim0⟩
  have h13 := Host.reduce_andi_all _ _ _ _ _ h14 (ix3 r s j)
  obtain ⟨hge, hle⟩ := IntOp.andi_eq_one.1 h13
  have hge' : (4294967295#32 : BitVec 32).toInt ≤ (x1 (ix3 r s j)).toInt := IntOp.cmpi_sge.1 hge
  have hle' : (x1 (ix3 r s j)).toInt ≤ (2048#32 : BitVec 32).toInt := IntOp.cmpi_sle.1 hle
  have c1 : (4294967295#32 : BitVec 32).toInt = -1 := by decide
  have c2 : (2048#32 : BitVec 32).toInt = 2048 := by decide
  rw [c1] at hge'
  rw [c2] at hle'
  exact ⟨hge', hle'⟩

/-- A wrapping sum of a word in [-1, 2048] and an offset in [-1, 1] is the integer sum. -/
theorem toInt_add_small (p d : BitVec 32) (hp : -1 ≤ p.toInt ∧ p.toInt ≤ 2048) (hd : -1 ≤ d.toInt ∧ d.toInt ≤ 1) :
    (p + d).toInt = p.toInt + d.toInt := by
  rw [BitVec.toInt_add]
  exact Int.bmod_eq_of_le (by omega) (by omega)

/-- The window offsets: the word -1 plus a position a < 3 reads a - 1. -/
theorem toInt_offset (a : Nat) (ha : a < 3) : ((4294967295#32 : BitVec 32) + BitVec.ofNat 32 a).toInt = (a : Int) - 1 := by
  interval_cases a <;> decide

/-- A sum index of the count at station (r, s) is the window index (r, s, k). -/
theorem idx61_eq (r : Fin 16) (s : Fin 5000) (k : Fin 9) : idx_main_v61 (ix2 r s) k = ix3 r s k := by
  funext a
  match a with
  | ⟨0, _⟩ => rfl
  | ⟨1, _⟩ => rfl
  | ⟨2, _⟩ => rfl

/-- The broadcast row coordinate at window cell k is the station's second position word. -/
theorem v13_read (x1 : (⟨S16x5000x2, .i32⟩ : BufTy).Contents (Elt Ideal)) (r : Fin 16) (s : Fin 5000) (k : Fin 9) :
    val_main_v13 (F := Ideal) x1 (ix3 r s k) = x1 (ix3 r s 1) := by
  rw [val_main_v13_apply, val_main_v11_apply, val_main_v10_apply, val_main_v9_apply]
  have hr := r.isLt
  have hs := s.isLt
  refine congrArg x1 (funext fun a => ?_)
  match a with
  | ⟨0, _⟩ => exact Fin.ext (by show (r.val * 5000 + s.val) / 5000 = r.val; omega)
  | ⟨1, _⟩ => exact Fin.ext (by show (r.val * 5000 + s.val) / 1 % 5000 = s.val; omega)
  | ⟨2, _⟩ => exact Fin.ext (by show 1 + 0 = 1; rfl)

/-- The broadcast column coordinate at window cell k is the station's first position word. -/
theorem v18_read (x1 : (⟨S16x5000x2, .i32⟩ : BufTy).Contents (Elt Ideal)) (r : Fin 16) (s : Fin 5000) (k : Fin 9) :
    val_main_v18 (F := Ideal) x1 (ix3 r s k) = x1 (ix3 r s 0) := by
  rw [val_main_v18_apply, val_main_v16_apply, val_main_v8_apply, val_main_v7_apply]
  have hr := r.isLt
  have hs := s.isLt
  refine congrArg x1 (funext fun a => ?_)
  match a with
  | ⟨0, _⟩ => exact Fin.ext (by show (r.val * 5000 + s.val) / 5000 = r.val; omega)
  | ⟨1, _⟩ => exact Fin.ext (by show (r.val * 5000 + s.val) / 1 % 5000 = s.val; omega)
  | ⟨2, _⟩ => exact Fin.ext (by show 0 = 0; rfl)

/-- The row offset of window cell k is k / 3 - 1, as the word -1 + k / 3. -/
theorem v14_read (r : Fin 16) (s : Fin 5000) (k : Fin 9) :
    val_main_v14 (F := Ideal) (ix3 r s k) = (4294967295#32 : BitVec 32) + BitVec.ofNat 32 (k.val / 3) := by
  rw [val_main_v14_apply, val_main_v12_apply, val_main_v5_apply, val_main_v3_apply, val_main_v2_apply, val_main_v1_apply,
    val_main_c_apply, val_main_v0_apply]
  rfl

/-- The column offset of window cell k is k % 3 - 1, as the word -1 + k % 3. -/
theorem v19_read (r : Fin 16) (s : Fin 5000) (k : Fin 9) :
    val_main_v19 (F := Ideal) (ix3 r s k) = (4294967295#32 : BitVec 32) + BitVec.ofNat 32 (k.val % 3) := by
  rw [val_main_v19_apply, val_main_v17_apply, val_main_v6_apply, val_main_v4_apply, val_main_v2_apply, val_main_v1_apply,
    val_main_c_apply, val_main_v0_apply]
  rfl

/-- Cell k of the window of station (r, s) is valid exactly when both shifted coordinates lie in [0, 2048). -/
theorem v31_eq_one_iff (x1 : (⟨S16x5000x2, .i32⟩ : BufTy).Contents (Elt Ideal)) (r : Fin 16) (s : Fin 5000) (k : Fin 9) :
    val_main_v31 (F := Ideal) x1 (ix3 r s k) = 1#1 ↔
      ((0 ≤ (x1 (ix3 r s 1) + ((4294967295#32 : BitVec 32) + BitVec.ofNat 32 (k.val / 3))).toInt ∧
        (x1 (ix3 r s 1) + ((4294967295#32 : BitVec 32) + BitVec.ofNat 32 (k.val / 3))).toInt < 2048) ∧
        0 ≤ (x1 (ix3 r s 0) + ((4294967295#32 : BitVec 32) + BitVec.ofNat 32 (k.val % 3))).toInt) ∧
        (x1 (ix3 r s 0) + ((4294967295#32 : BitVec 32) + BitVec.ofNat 32 (k.val % 3))).toInt < 2048 := by
  rw [val_main_v31_apply, val_main_v28_apply, val_main_v25_apply, val_main_v22_apply, val_main_v24_apply,
    val_main_v27_apply, val_main_v30_apply, val_main_v15_apply, val_main_v20_apply, v13_read, v18_read, v14_read, v19_read,
    val_main_v21_apply, val_main_v23_apply, val_main_v26_apply, val_main_v29_apply,
    val_main_c_0_apply, val_main_c_1_apply, val_main_c_2_apply, val_main_c_3_apply,
    IntOp.andi_eq_one, IntOp.andi_eq_one, IntOp.andi_eq_one, IntOp.cmpi_sge, IntOp.cmpi_slt, IntOp.cmpi_sge, IntOp.cmpi_slt]
  have c0 : (0#32 : BitVec 32).toInt = 0 := by decide
  have c1 : (2048#32 : BitVec 32).toInt = 2048 := by decide
  rw [c0, c1]
  exact Iff.rfl

/-- A coordinate in [-1, 2048] has a window offset a - 1, a < 3, that brings it into [0, 2048). -/
theorem exists_offset (p : BitVec 32) (hp : -1 ≤ p.toInt ∧ p.toInt ≤ 2048) :
    ∃ a : Nat, a < 3 ∧ 0 ≤ (p + ((4294967295#32 : BitVec 32) + BitVec.ofNat 32 a)).toInt ∧
      (p + ((4294967295#32 : BitVec 32) + BitVec.ofNat 32 a)).toInt < 2048 := by
  have key : ∀ a : Nat, a < 3 →
      (p + ((4294967295#32 : BitVec 32) + BitVec.ofNat 32 a)).toInt = p.toInt + ((a : Int) - 1) := by
    intro a ha
    have hd := toInt_offset a ha
    rw [toInt_add_small p _ hp (by rw [hd]; omega), hd]
  by_cases h1 : p.toInt = -1
  · exact ⟨2, by omega, by rw [key 2 (by omega)]; omega, by rw [key 2 (by omega)]; omega⟩
  · by_cases h2 : p.toInt = 2048
    · exact ⟨0, by omega, by rw [key 0 (by omega)]; omega, by rw [key 0 (by omega)]; omega⟩
    · exact ⟨1, by omega, by rw [key 1 (by omega)]; omega, by rw [key 1 (by omega)]; omega⟩

/-- With both coordinates of a station in `[-1, 2048]`, one of the nine cells of its 3 × 3 window lies inside the
    2048 × 2048 image, so the count of valid cells, a sum of zeros and ones, is at least one. -/
theorem counts_ge_one (x1 : (⟨S16x5000x2, .i32⟩ : BufTy).Contents (Elt Ideal))
    (hx : ∀ (r : Fin 16) (s : Fin 5000) (j : Fin 2), -1 ≤ (x1 (ix3 r s j)).toInt ∧ (x1 (ix3 r s j)).toInt ≤ 2048)
    (r : Fin 16) (s : Fin 5000) :
    (1 : EReal) ≤ val_main_v61 (F := Ideal) x1 (ix2 r s) := by
  rw [val_main_v61_apply, val_main_cst_apply]
  show (1 : EReal) ≤ Ideal.ofBits .f32 0x00000000#32 + _
  rw [Ideal.ofBits_zero_f32, zero_add]
  obtain ⟨a, ha, hya0, hya1⟩ := exists_offset (x1 (ix3 r s 1)) (hx r s 1)
  obtain ⟨b, hb, hxb0, hxb1⟩ := exists_offset (x1 (ix3 r s 0)) (hx r s 0)
  have hk : 3 * a + b < 9 := by omega
  have hdiv : (3 * a + b) / 3 = a := by omega
  have hmod : (3 * a + b) % 3 = b := by omega
  have hvalid : val_main_v31 (F := Ideal) x1 (ix3 r s ⟨3 * a + b, hk⟩) = 1#1 := by
    rw [v31_eq_one_iff]
    simp only [hdiv, hmod]
    exact ⟨⟨⟨hya0, hya1⟩, hxb0⟩, hxb1⟩
  have hone : val_main_v60 (F := Ideal) x1 (idx_main_v61 (ix2 r s) ⟨3 * a + b, hk⟩) = 1 := by
    rw [idx61_eq, val_main_v60_apply, hvalid]
    show (((1#1 : BitVec 1).toNat : ℝ) : EReal) = 1
    simp
  calc (1 : EReal) = val_main_v60 (F := Ideal) x1 (idx_main_v61 (ix2 r s) ⟨3 * a + b, hk⟩) := hone.symm
    _ ≤ ∑ k : Fin 9, val_main_v60 (F := Ideal) x1 (idx_main_v61 (ix2 r s) k) :=
        Finset.single_le_sum (f := fun k : Fin 9 => val_main_v60 (F := Ideal) x1 (idx_main_v61 (ix2 r s) k))
          (fun k _ => by
            rw [val_main_v60_apply]
            exact EReal.coe_nonneg.2 (Nat.cast_nonneg _)) (Finset.mem_univ _)

end Cert.ReferenceIdeal.RefValue

end
-- ==== Proof.lean ====
/-
  Mean squared error of 3 × 3 window means at 16 × 5000 station positions of a 2048 × 2048 image against the stations'
  runoffs: a kernel program against a host-only reference, over the extended reals.

  Both programs gather, for every station, the nine cells of the window around its position (clipped into the
  image, with a validity bit per cell), sum the valid cells' values and count the valid cells. The reference divides
  the sum by the count; the kernel program divides by the maximum of the count and 1. Then the reference sums the
  squared differences of these means and the runoffs over all 16 × 5000 stations and divides by 80000. The kernel
  program pads each of the 16 rows to 5120 lanes (means and runoffs with zeros, and a mask of ones with zeros),
  and a kernel on a (2, 8) grid accumulates, per core, the masked squared differences of its eight rows lane by lane
  in a 40 × 128 scratch, sums the scratch at the core's last row into entry (0, 0) of the core's 8 × 128 output
  block, and the host sums the 16 × 128 output and divides by 80000.

  The claim is stated under the precondition that the float inputs are finite and every position word lies in
  [-1, 2048]. Then every window has a valid cell, the count is at least 1, the kernel's guard does not bind and the
  two window means are the same extended real; the padded lanes contribute zero; and the two groupings of the sum
  agree because addition of extended reals is commutative and associative. (Outside that range of positions a
  window can be empty; the reference then divides zero by zero and the two results differ.)

  The frames of the two kernel programs are proved against the launch theorem for a scratch carried across grid
  points with host operations around the region (one text, generic in the float instance, in the modules `KKit` …
  `KFrame` and `KIKit` … `KIFrame`); the reference's run is read stage by stage off its list of host operations (`RefRun`), and its frame is that run with the result dropped; nothing was
  rewritten by the idealization, so `preserves` is trivial.
-/
import proofs.«414909_j37056977830580_4_alg».proof.Defs
import proofs.«414909_j37056977830580_4_alg».proof.Proof.Gen.Kernel
import proofs.«414909_j37056977830580_4_alg».proof.Proof.Gen.KernelIdeal
import proofs.«414909_j37056977830580_4_alg».proof.Proof.Gen.ReferenceIdeal
import proofs.«414909_j37056977830580_4_alg».proof.Proof.Gen.Pre_finite_inputs
import proofs.«414909_j37056977830580_4_alg».proof.Proof.RefRun
import proofs.«414909_j37056977830580_4_alg».proof.Proof.KFrame
import proofs.«414909_j37056977830580_4_alg».proof.Proof.KIFrame
import proofs.«414909_j37056977830580_4_alg».proof.Proof.KIValue
import proofs.«414909_j37056977830580_4_alg».proof.Proof.KIChain
import proofs.«414909_j37056977830580_4_alg».proof.Proof.RefValue
import proofs.«414909_j37056977830580_4_alg».proof.Proof.RefCounts

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame (F := Bits) m ρ

theorem frame_ki : Cert.frame_KernelIdeal := fun m ρ _ => Cert.KernelIdeal.Fr.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Under the precondition the kernel's guard on the count does not bind: the counts are the reference's counts of
    the same positions, each at least one, so the maximum with 1 is the count and the two window means agree. -/
theorem avg_eq (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 16) (s : Fin 5000) :
    Cert.KernelIdeal.Val.avgK m c r s
      = Cert.ReferenceIdeal.RefValue.avgR
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) r s := by
  unfold Cert.KernelIdeal.Val.avgK Cert.ReferenceIdeal.RefValue.avgR
  rw [Cert.KernelIdeal.Val.num_eq, Cert.KernelIdeal.Val.cnt_eq]
  rw [max_eq_left (Cert.ReferenceIdeal.RefValue.counts_ge_one _
    (fun r s j => Cert.ReferenceIdeal.RefValue.pos_range _ _ _ (hpre c) r s j) r s)]

/-- Both programs end at the sum over all stations of the squared error of the window mean against the runoff, over
    80000: the kernel program by its value leg, the reference by its run, the means equal by `avg_eq`. -/
theorem algebraic : Cert.algebraic_KernelIdeal_ReferenceIdeal := by
  intro m ρ m' ρ' hpre hagree
  refine ⟨fun c => Pipeline.afterTail₀ Cert.KernelIdeal.cfgs (Cert.KernelIdeal.Fr.dats m) 0 (Cert.KernelIdeal.Fr.V0 m)
    [Cert.KernelIdeal.Gen.hostOps1] c Cert.KernelIdeal.main_v76, ?_, ?_⟩
  · refine (θ_run Cert.KernelIdeal.defs _ _).mono (fun r h c => ?_) (Cert.KernelIdeal.Fr.run_main (F := Ideal) m ρ)
    exact ⟨(h c).2 Cert.KernelIdeal.main_v76 (Pipeline.mem_restRefs_of Cert.KernelIdeal.main_v76 (by decide) (by decide)),
      ((h c).2 Cert.KernelIdeal.main_arg0 (Pipeline.mem_restRefs_of Cert.KernelIdeal.main_arg0 (by decide) (by decide))).trans
        (Cert.KernelIdeal.Fr.W_main_arg0 m (Cert.KernelIdeal.Fr.dats m) c),
      ((h c).2 Cert.KernelIdeal.main_arg1 (Pipeline.mem_restRefs_of Cert.KernelIdeal.main_arg1 (by decide) (by decide))).trans
        (Cert.KernelIdeal.Fr.W_main_arg1 m (Cert.KernelIdeal.Fr.dats m) c),
      ((h c).2 Cert.KernelIdeal.main_arg2 (Pipeline.mem_restRefs_of Cert.KernelIdeal.main_arg2 (by decide) (by decide))).trans
        (Cert.KernelIdeal.Fr.W_main_arg2 m (Cert.KernelIdeal.Fr.dats m) c)⟩
  · refine (θ_run Cert.ReferenceIdeal.defs _ _).mono (fun r h c => ⟨(h c).1.trans ?_, (h c).2⟩)
      (Cert.ReferenceIdeal.RefRun.run m' ρ')
    refine (Cert.ReferenceIdeal.RefValue.result_eq m' c).trans ?_
    refine Eq.trans ?_ (Cert.KernelIdeal.Val.result_eq m c).symm
    have hf : (fun (r : Fin 16) (s : Fin 5000) => Cert.Spec.sqErr
          (Cert.ReferenceIdeal.RefValue.avgR
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1)) r s)
          (m' ((c.tc : Thread Cert.ReferenceIdeal.nD Cert.ReferenceIdeal.τ).loc Cert.ReferenceIdeal.main_arg2) (ix2 r s)))
        = Cert.KernelIdeal.Val.errK m c := by
      funext r s
      unfold Cert.KernelIdeal.Val.errK Cert.KernelIdeal.Val.roffK
      rw [(hagree c).1, (hagree c).2.1, (hagree c).2.2, avg_eq m hpre c r s]
    rw [hf]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
